-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072 : Shape := ⟨1, ![131072]⟩
abbrev S1000000 : Shape := ⟨1, ![1000000]⟩
abbrev S1000000x32 : Shape := ⟨2, ![1000000, 32]⟩
abbrev S2x32 : Shape := ⟨2, ![2, 32]⟩
abbrev S8x32 : Shape := ⟨2, ![8, 32]⟩
abbrev S32x96 : Shape := ⟨2, ![32, 96]⟩
abbrev S32 : Shape := ⟨1, ![32]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S2x32 : S_.BroadcastsInDim S2x32 (![] : Fin 0 → Fin S2x32.rank)
  reducesTo_S2x32_S_d0_1 : S2x32.ReducesTo [0, 1] S_
  bcast_S_S8x32 : S_.BroadcastsInDim S8x32 (![] : Fin 0 → Fin S8x32.rank)
  reducesTo_S8x32_S_d0_1 : S8x32.ReducesTo [0, 1] S_
  bcast_S_S32x96 : S_.BroadcastsInDim S32x96 (![] : Fin 0 → Fin S32x96.rank)
  reducesTo_S32x96_S_d0_1 : S32x96.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg7 : FVec F S32 .f32) (main_v13 : IVec S_ 1) (main_v16 : IVec S32x96 1) : IVec S_ 1 :=
  let main_c_5 : IVec S_ 1 := constantI S_ 1 1#1
  let main_v17 : IVec S_ 1 := (fun x v => Host.reduce IntOp.andi x v reducesTo_S32x96_S_d0_1 h_S_) main_v16 main_c_5
  let main_v18 : IVec S_ 1 := andi main_v13 main_v17
  let main_v19 : FVec F S32 .f32 := Host.absf main_arg7
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : IVec S131072 32) (main_arg1 : IVec S1000000 32) (main_arg2 : IVec S1000000 32) (main_arg3 : FVec F S1000000x32 .f32) (main_arg4 : FVec F S2x32 .f32) (main_arg5 : FVec F S8x32 .f32) (main_arg6 : FVec F S32x96 .f32) (main_arg7 : FVec F S32 .f32) : IVec S_ 1 :=
  let main_v0 : FVec F S1000000x32 .f32 := Host.absf main_arg3
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_v4 : FVec F S2x32 .f32 := Host.absf main_arg4
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S8x32 .f32 := Host.absf main_arg5
  let main_cst_2 : FVec F S_ .f32 := constant S_ .f32 0x7F800000#32
  let main_v10 : FVec F S8x32 .f32 := broadcastInDim S8x32 ![] bcast_S_S8x32 main_cst_2
  let main_v11 : IVec S8x32 1 := cmpf .olt main_v9 main_v10
  let main_c_3 : IVec S_ 1 := constantI S_ 1 1#1
  let main_v12 : IVec S_ 1 := (fun x v => Host.reduce IntOp.andi x v reducesTo_S8x32_S_d0_1 h_S_) main_v11 main_c_3
  let main_v13 : IVec S_ 1 := andi main_v8 main_v12
  let main_v14 : FVec F S32x96 .f32 := Host.absf main_arg6
  let main_cst_4 : FVec F S_ .f32 := constant S_ .f32 0x7F800000#32
  let main_v15 : FVec F S32x96 .f32 := broadcastInDim S32x96 ![] bcast_S_S32x96 main_cst_4
  let main_v16 : IVec S32x96 1 := cmpf .olt main_v14 main_v15
  fn_part1 (F := F) main_arg7 main_v13 main_v16
-- ==== Kernel.lean ====
abbrev S131072 : Shape := ⟨1, ![131072]⟩
abbrev S1000000 : Shape := ⟨1, ![1000000]⟩
abbrev S1000000x32 : Shape := ⟨2, ![1000000, 32]⟩
abbrev S2x32 : Shape := ⟨2, ![2, 32]⟩
abbrev S8x32 : Shape := ⟨2, ![8, 32]⟩
abbrev S32x96 : Shape := ⟨2, ![32, 96]⟩
abbrev S32 : Shape := ⟨1, ![32]⟩
abbrev S_ : Shape := ⟨0, ![]⟩
abbrev S131072x1 : Shape := ⟨2, ![131072, 1]⟩
abbrev S131072x32 : Shape := ⟨2, ![131072, 32]⟩
abbrev S32x32 : Shape := ⟨2, ![32, 32]⟩
abbrev S1x32 : Shape := ⟨2, ![1, 32]⟩
abbrev S32768x128 : Shape := ⟨2, ![32768, 128]⟩
abbrev S4x4 : Shape := ⟨2, ![4, 4]⟩
abbrev S4x1x4x1 : Shape := ⟨4, ![4, 1, 4, 1]⟩
abbrev S1x32x1x32 : Shape := ⟨4, ![1, 32, 1, 32]⟩
abbrev S4x32x4x32 : Shape := ⟨4, ![4, 32, 4, 32]⟩
abbrev S128x128 : Shape := ⟨2, ![128, 128]⟩
abbrev S8192x128 : Shape := ⟨2, ![8192, 128]⟩

abbrev nBuf : Space → Nat
  | .hbm => 82
  | .vmem => 7
  | .smem => 0
  | _ => 0

abbrev bufTy : (tb : Table) → Fin (tcTables nBuf tb) → BufTy
  | .hbm, ⟨0, _⟩ => ⟨S131072, .i32⟩
  | .hbm, ⟨1, _⟩ => ⟨S1000000, .i32⟩
  | .hbm, ⟨2, _⟩ => ⟨S1000000, .i32⟩
  | .hbm, ⟨3, _⟩ => ⟨S1000000x32, .f32⟩
  | .hbm, ⟨4, _⟩ => ⟨S2x32, .f32⟩
  | .hbm, ⟨5, _⟩ => ⟨S8x32, .f32⟩
  | .hbm, ⟨6, _⟩ => ⟨S32x96, .f32⟩
  | .hbm, ⟨7, _⟩ => ⟨S32, .f32⟩
  | .hbm, ⟨8, _⟩ => ⟨S_, .i32⟩
  | .hbm, ⟨9, _⟩ => ⟨S131072, .i32⟩
  | .hbm, ⟨10, _⟩ => ⟨S131072, .i1⟩
  | .hbm, ⟨11, _⟩ => ⟨S_, .i32⟩
  | .hbm, ⟨12, _⟩ => ⟨S131072, .i32⟩
  | .hbm, ⟨13, _⟩ => ⟨S131072, .i32⟩
  | .hbm, ⟨14, _⟩ => ⟨S131072, .i32⟩
  | .hbm, ⟨15, _⟩ => ⟨S131072x1, .i32⟩
  | .hbm, ⟨16, _⟩ => ⟨S131072x32, .f32⟩
  | .hbm, ⟨17, _⟩ => ⟨S_, .i32⟩
  | .hbm, ⟨18, _⟩ => ⟨S131072, .i32⟩
  | .hbm, ⟨19, _⟩ => ⟨S131072, .i1⟩
  | .hbm, ⟨20, _⟩ => ⟨S_, .i32⟩
  | .hbm, ⟨21, _⟩ => ⟨S131072, .i32⟩
  | .hbm, ⟨22, _⟩ => ⟨S131072, .i32⟩
  | .hbm, ⟨23, _⟩ => ⟨S131072, .i32⟩
  | .hbm, ⟨24, _⟩ => ⟨S131072x1, .i32⟩
  | .hbm, ⟨25, _⟩ => ⟨S131072, .i32⟩
  | .hbm, ⟨26, _⟩ => ⟨S_, .i32⟩
  | .hbm, ⟨27, _⟩ => ⟨S131072, .i32⟩
  | .hbm, ⟨28, _⟩ => ⟨S131072, .i1⟩
  | .hbm, ⟨29, _⟩ => ⟨S_, .i32⟩
  | .hbm, ⟨30, _⟩ => ⟨S131072, .i32⟩
  | .hbm, ⟨31, _⟩ => ⟨S131072, .i32⟩
  | .hbm, ⟨32, _⟩ => ⟨S131072, .i32⟩
  | .hbm, ⟨33, _⟩ => ⟨S131072x1, .i32⟩
  | .hbm, ⟨34, _⟩ => ⟨S131072, .i32⟩
  | .hbm, ⟨35, _⟩ => ⟨S32x32, .f32⟩
  | .hbm, ⟨36, _⟩ => ⟨S32x32, .f32⟩
  | .hbm, ⟨37, _⟩ => ⟨S32x32, .f32⟩
  | .hbm, ⟨38, _⟩ => ⟨S32x32, .f32⟩
  | .hbm, ⟨39, _⟩ => ⟨S2x32, .f32⟩
  | .hbm, ⟨40, _⟩ => ⟨S32x32, .f32⟩
  | .hbm, ⟨41, _⟩ => ⟨S8x32, .f32⟩
  | .hbm, ⟨42, _⟩ => ⟨S_, .i32⟩
  | .hbm, ⟨43, _⟩ => ⟨S131072, .i32⟩
  | .hbm, ⟨44, _⟩ => ⟨S131072, .i1⟩
  | .hbm, ⟨45, _⟩ => ⟨S_, .i32⟩
  | .hbm, ⟨46, _⟩ => ⟨S131072, .i32⟩
  | .hbm, ⟨47, _⟩ => ⟨S131072, .i32⟩
  | .hbm, ⟨48, _⟩ => ⟨S131072, .i32⟩
  | .hbm, ⟨49, _⟩ => ⟨S131072x1, .i32⟩
  | .hbm, ⟨50, _⟩ => ⟨S131072x32, .f32⟩
  | .hbm, ⟨51, _⟩ => ⟨S_, .i32⟩
  | .hbm, ⟨52, _⟩ => ⟨S131072, .i32⟩
  | .hbm, ⟨53, _⟩ => ⟨S131072, .i1⟩
  | .hbm, ⟨54, _⟩ => ⟨S_, .i32⟩
  | .hbm, ⟨55, _⟩ => ⟨S131072, .i32⟩
  | .hbm, ⟨56, _⟩ => ⟨S131072, .i32⟩
  | .hbm, ⟨57, _⟩ => ⟨S131072, .i32⟩
  | .hbm, ⟨58, _⟩ => ⟨S131072x1, .i32⟩
  | .hbm, ⟨59, _⟩ => ⟨S131072x32, .f32⟩
  | .hbm, ⟨60, _⟩ => ⟨S131072x32, .f32⟩
  | .hbm, ⟨61, _⟩ => ⟨S1x32, .f32⟩
  | .hbm, ⟨62, _⟩ => ⟨S131072x32, .f32⟩
  | .hbm, ⟨63, _⟩ => ⟨S131072x32, .f32⟩
  | .hbm, ⟨64, _⟩ => ⟨S32768x128, .f32⟩
  | .hbm, ⟨65, _⟩ => ⟨S32768x128, .f32⟩
  | .hbm, ⟨66, _⟩ => ⟨S4x4, .i32⟩
  | .hbm, ⟨67, _⟩ => ⟨S4x4, .i32⟩
  | .hbm, ⟨68, _⟩ => ⟨S_, .i32⟩
  | .hbm, ⟨69, _⟩ => ⟨S4x4, .i32⟩
  | .hbm, ⟨70, _⟩ => ⟨S4x4, .i32⟩
  | .hbm, ⟨71, _⟩ => ⟨S4x4, .i1⟩
  | .hbm, ⟨72, _⟩ => ⟨S4x4, .f32⟩
  | .hbm, ⟨73, _⟩ => ⟨S32x32, .f32⟩
  | .hbm, ⟨74, _⟩ => ⟨S4x1x4x1, .f32⟩
  | .hbm, ⟨75, _⟩ => ⟨S1x32x1x32, .f32⟩
  | .hbm, ⟨76, _⟩ => ⟨S4x32x4x32, .f32⟩
  | .hbm, ⟨77, _⟩ => ⟨S4x32x4x32, .f32⟩
  | .hbm, ⟨78, _⟩ => ⟨S4x32x4x32, .f32⟩
  | .hbm, ⟨79, _⟩ => ⟨S128x128, .f32⟩
  | .hbm, ⟨80, _⟩ => ⟨S32768x128, .f32⟩
  | .hbm, ⟨81, _⟩ => ⟨S131072x32, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S128x128, .f32⟩
  | .local _ .vmem, ⟨5, _⟩ => ⟨S8192x128, .f32⟩
  | .local _ .vmem, ⟨6, _⟩ => ⟨S8192x128, .f32⟩
  | _, _ => ⟨S131072, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  slices_S32x96_S32x32_0_0 : S32x96.Slices ![0, 0] S32x32
  slices_S32x96_S32x32_0_32 : S32x96.Slices ![0, 32] S32x32
  slices_S32x96_S32x32_0_64 : S32x96.Slices ![0, 64] S32x32
  transposes_S32x32_S32x32_1_0 : S32x32.Transposes [1, 0] S32x32
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  shapeCasts_S131072x32_S32768x128 : S131072x32.ShapeCasts S32768x128
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S32x32_S1x32x1x32_1_3 : S32x32.BroadcastsInDim S1x32x1x32 (![1, 3] : Fin 2 → Fin S1x32x1x32.rank)
  bcast_S4x1x4x1_S4x32x4x32_0_1_2_3 : S4x1x4x1.BroadcastsInDim S4x32x4x32 (![0, 1, 2, 3] : Fin 4 → Fin S4x32x4x32.rank)
  bcast_S1x32x1x32_S4x32x4x32_0_1_2_3 : S1x32x1x32.BroadcastsInDim S4x32x4x32 (![0, 1, 2, 3] : Fin 4 → Fin S4x32x4x32.rank)
  shapeCasts_S4x32x4x32_S128x128 : S4x32x4x32.ShapeCasts S128x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S32768x128_S131072x32 : S32768x128.ShapeCasts S131072x32
  gather_S1000000x32_S131072x1_S131072x32_1_0_n_n_0_1_132_wf : GatherDims.WF S1000000x32 S131072x1 S131072x32 [1] [0] [] [0] [] 1 ![1, 32]
  gather_S1000000_S131072x1_S131072_n_0_n_n_0_1_1_wf : GatherDims.WF S1000000 S131072x1 S131072 [] [0] [] [0] [] 1 ![1]
  dot_S2x32_S32x32_S2x32_1_0_0_1_n_n_wf : DotDims.WF S2x32 S32x32 S2x32 [1] [0] [0] [1] [] []
  dot_S8x32_S32x32_S8x32_1_0_0_1_n_n_wf : DotDims.WF S8x32 S32x32 S8x32 [1] [0] [0] [1] [] []
  gather_S2x32_S131072x1_S131072x32_1_0_n_n_0_1_132_wf : GatherDims.WF S2x32 S131072x1 S131072x32 [1] [0] [] [0] [] 1 ![1, 32]
  gather_S8x32_S131072x1_S131072x32_1_0_n_n_0_1_132_wf : GatherDims.WF S8x32 S131072x1 S131072x32 [1] [0] [] [0] [] 1 ![1, 32]
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S32768x128.size a
  hwx0_0 : ∀ i : grid0.Coords, EltTy.bits .f32 = 32 ∨ (Rect.block (s := S32768x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S32768x128.size a
  hwx0_1 : ∀ i : grid0.Coords, EltTy.bits .f32 = 32 ∨ (Rect.block (s := S32768x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S32768x128.size a
  hwx0_3 : ∀ i : grid0.Coords, EltTy.bits .f32 = 32 ∨ (Rect.block (s := S32768x128) S8192x128.size (cc0_transform_3 i) (hinb0_3 i)).WholeWords (EltTy.packing .f32)

variable [Facts₀]

def gather_S1000000x32_S131072x1_S131072x32_1_0_n_n_0_1_132 : GatherDims S1000000x32 S131072x1 S131072x32 where
  offsetDims := [1]
  collapsedSliceDims := [0]
  operandBatchingDims := []
  startIndicesBatchingDims := []
  startIndexMap := [0]
  indexVectorDim := 1
  sliceSizes := ![1, 32]
  wf := gather_S1000000x32_S131072x1_S131072x32_1_0_n_n_0_1_132_wf
def gather_S1000000_S131072x1_S131072_n_0_n_n_0_1_1 : GatherDims S1000000 S131072x1 S131072 where
  offsetDims := []
  collapsedSliceDims := [0]
  operandBatchingDims := []
  startIndicesBatchingDims := []
  startIndexMap := [0]
  indexVectorDim := 1
  sliceSizes := ![1]
  wf := gather_S1000000_S131072x1_S131072_n_0_n_n_0_1_1_wf
def dot_S2x32_S32x32_S2x32_1_0_0_1_n_n : DotDims S2x32 S32x32 S2x32 where
  lhsContracting := [1]
  rhsContracting := [0]
  lhsNonContracting := [0]
  rhsNonContracting := [1]
  lhsBatch := []
  rhsBatch := []
  wf := dot_S2x32_S32x32_S2x32_1_0_0_1_n_n_wf
def dot_S8x32_S32x32_S8x32_1_0_0_1_n_n : DotDims S8x32 S32x32 S8x32 where
  lhsContracting := [1]
  rhsContracting := [0]
  lhsNonContracting := [0]
  rhsNonContracting := [1]
  lhsBatch := []
  rhsBatch := []
  wf := dot_S8x32_S32x32_S8x32_1_0_0_1_n_n_wf
def gather_S2x32_S131072x1_S131072x32_1_0_n_n_0_1_132 : GatherDims S2x32 S131072x1 S131072x32 where
  offsetDims := [1]
  collapsedSliceDims := [0]
  operandBatchingDims := []
  startIndicesBatchingDims := []
  startIndexMap := [0]
  indexVectorDim := 1
  sliceSizes := ![1, 32]
  wf := gather_S2x32_S131072x1_S131072x32_1_0_n_n_0_1_132_wf
def gather_S8x32_S131072x1_S131072x32_1_0_n_n_0_1_132 : GatherDims S8x32 S131072x1 S131072x32 where
  offsetDims := [1]
  collapsedSliceDims := [0]
  operandBatchingDims := []
  startIndicesBatchingDims := []
  startIndexMap := [0]
  indexVectorDim := 1
  sliceSizes := ![1, 32]
  wf := gather_S8x32_S131072x1_S131072x32_1_0_n_n_0_1_132_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v46) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v55) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v56) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072 : Shape := ⟨1, ![131072]⟩
abbrev S1000000 : Shape := ⟨1, ![1000000]⟩
abbrev S1000000x32 : Shape := ⟨2, ![1000000, 32]⟩
abbrev S2x32 : Shape := ⟨2, ![2, 32]⟩
abbrev S8x32 : Shape := ⟨2, ![8, 32]⟩
abbrev S32x96 : Shape := ⟨2, ![32, 96]⟩
abbrev S32 : Shape := ⟨1, ![32]⟩
abbrev S_ : Shape := ⟨0, ![]⟩
abbrev S131072x1 : Shape := ⟨2, ![131072, 1]⟩
abbrev S131072x32 : Shape := ⟨2, ![131072, 32]⟩
abbrev S131072x96 : Shape := ⟨2, ![131072, 96]⟩
abbrev S96x32 : Shape := ⟨2, ![96, 32]⟩
abbrev S1x32 : Shape := ⟨2, ![1, 32]⟩

abbrev nBuf : Space → Nat
  | .hbm => 62
  | .vmem => 0
  | .smem => 0
  | _ => 0

abbrev bufTy : (tb : Table) → Fin (tcTables nBuf tb) → BufTy
  | .hbm, ⟨0, _⟩ => ⟨S131072, .i32⟩
  | .hbm, ⟨1, _⟩ => ⟨S1000000, .i32⟩
  | .hbm, ⟨2, _⟩ => ⟨S1000000, .i32⟩
  | .hbm, ⟨3, _⟩ => ⟨S1000000x32, .f32⟩
  | .hbm, ⟨4, _⟩ => ⟨S2x32, .f32⟩
  | .hbm, ⟨5, _⟩ => ⟨S8x32, .f32⟩
  | .hbm, ⟨6, _⟩ => ⟨S32x96, .f32⟩
  | .hbm, ⟨7, _⟩ => ⟨S32, .f32⟩
  | .hbm, ⟨8, _⟩ => ⟨S_, .i32⟩
  | .hbm, ⟨9, _⟩ => ⟨S131072, .i32⟩
  | .hbm, ⟨10, _⟩ => ⟨S131072, .i1⟩
  | .hbm, ⟨11, _⟩ => ⟨S_, .i32⟩
  | .hbm, ⟨12, _⟩ => ⟨S131072, .i32⟩
  | .hbm, ⟨13, _⟩ => ⟨S131072, .i32⟩
  | .hbm, ⟨14, _⟩ => ⟨S131072, .i32⟩
  | .hbm, ⟨15, _⟩ => ⟨S131072x1, .i32⟩
  | .hbm, ⟨16, _⟩ => ⟨S131072, .i32⟩
  | .hbm, ⟨17, _⟩ => ⟨S_, .i32⟩
  | .hbm, ⟨18, _⟩ => ⟨S131072, .i32⟩
  | .hbm, ⟨19, _⟩ => ⟨S131072, .i1⟩
  | .hbm, ⟨20, _⟩ => ⟨S_, .i32⟩
  | .hbm, ⟨21, _⟩ => ⟨S131072, .i32⟩
  | .hbm, ⟨22, _⟩ => ⟨S131072, .i32⟩
  | .hbm, ⟨23, _⟩ => ⟨S131072, .i32⟩
  | .hbm, ⟨24, _⟩ => ⟨S131072x1, .i32⟩
  | .hbm, ⟨25, _⟩ => ⟨S131072x32, .f32⟩
  | .hbm, ⟨26, _⟩ => ⟨S_, .i32⟩
  | .hbm, ⟨27, _⟩ => ⟨S131072, .i32⟩
  | .hbm, ⟨28, _⟩ => ⟨S131072, .i1⟩
  | .hbm, ⟨29, _⟩ => ⟨S_, .i32⟩
  | .hbm, ⟨30, _⟩ => ⟨S131072, .i32⟩
  | .hbm, ⟨31, _⟩ => ⟨S131072, .i32⟩
  | .hbm, ⟨32, _⟩ => ⟨S131072, .i32⟩
  | .hbm, ⟨33, _⟩ => ⟨S131072x1, .i32⟩
  | .hbm, ⟨34, _⟩ => ⟨S131072, .i32⟩
  | .hbm, ⟨35, _⟩ => ⟨S_, .i32⟩
  | .hbm, ⟨36, _⟩ => ⟨S131072, .i32⟩
  | .hbm, ⟨37, _⟩ => ⟨S131072, .i1⟩
  | .hbm, ⟨38, _⟩ => ⟨S_, .i32⟩
  | .hbm, ⟨39, _⟩ => ⟨S131072, .i32⟩
  | .hbm, ⟨40, _⟩ => ⟨S131072, .i32⟩
  | .hbm, ⟨41, _⟩ => ⟨S131072, .i32⟩
  | .hbm, ⟨42, _⟩ => ⟨S131072x1, .i32⟩
  | .hbm, ⟨43, _⟩ => ⟨S131072x32, .f32⟩
  | .hbm, ⟨44, _⟩ => ⟨S_, .i32⟩
  | .hbm, ⟨45, _⟩ => ⟨S131072, .i32⟩
  | .hbm, ⟨46, _⟩ => ⟨S131072, .i1⟩
  | .hbm, ⟨47, _⟩ => ⟨S_, .i32⟩
  | .hbm, ⟨48, _⟩ => ⟨S131072, .i32⟩
  | .hbm, ⟨49, _⟩ => ⟨S131072, .i32⟩
  | .hbm, ⟨50, _⟩ => ⟨S131072, .i32⟩
  | .hbm, ⟨51, _⟩ => ⟨S131072x1, .i32⟩
  | .hbm, ⟨52, _⟩ => ⟨S131072x32, .f32⟩
  | .hbm, ⟨53, _⟩ => ⟨S131072x96, .f32⟩
  | .hbm, ⟨54, _⟩ => ⟨S96x32, .f32⟩
  | .hbm, ⟨55, _⟩ => ⟨S131072x32, .f32⟩
  | .hbm, ⟨56, _⟩ => ⟨S1x32, .f32⟩
  | .hbm, ⟨57, _⟩ => ⟨S131072x32, .f32⟩
  | .hbm, ⟨58, _⟩ => ⟨S131072x32, .f32⟩
  | .hbm, ⟨59, _⟩ => ⟨S_, .f32⟩
  | .hbm, ⟨60, _⟩ => ⟨S131072x32, .f32⟩
  | .hbm, ⟨61, _⟩ => ⟨S131072x32, .f32⟩
  | _, _ => ⟨S131072, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call0_cst : Ref sig .tc := ⟨.hbm, 59, rfl⟩
abbrev main_call0_v0 : Ref sig .tc := ⟨.hbm, 60, rfl⟩
abbrev main_v41 : Ref sig .tc := ⟨.hbm, 61, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  concatenates_S131072x32_S131072x32_S131072x32_S131072x96_d1 : Shape.Concatenates [S131072x32, S131072x32, S131072x32] S131072x96 1
  transposes_S32x96_S96x32_1_0 : S32x96.Transposes [1, 0] S96x32
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  bcast_S_S131072x32 : S_.BroadcastsInDim S131072x32 (![] : Fin 0 → Fin S131072x32.rank)
  gather_S1000000_S131072x1_S131072_n_0_n_n_0_1_1_wf : GatherDims.WF S1000000 S131072x1 S131072 [] [0] [] [0] [] 1 ![1]
  gather_S2x32_S131072x1_S131072x32_1_0_n_n_0_1_132_wf : GatherDims.WF S2x32 S131072x1 S131072x32 [1] [0] [] [0] [] 1 ![1, 32]
  gather_S8x32_S131072x1_S131072x32_1_0_n_n_0_1_132_wf : GatherDims.WF S8x32 S131072x1 S131072x32 [1] [0] [] [0] [] 1 ![1, 32]
  gather_S1000000x32_S131072x1_S131072x32_1_0_n_n_0_1_132_wf : GatherDims.WF S1000000x32 S131072x1 S131072x32 [1] [0] [] [0] [] 1 ![1, 32]
  dot_S131072x96_S96x32_S131072x32_1_0_0_1_n_n_wf : DotDims.WF S131072x96 S96x32 S131072x32 [1] [0] [0] [1] [] []

variable [Facts₀]

def gather_S1000000_S131072x1_S131072_n_0_n_n_0_1_1 : GatherDims S1000000 S131072x1 S131072 where
  offsetDims := []
  collapsedSliceDims := [0]
  operandBatchingDims := []
  startIndicesBatchingDims := []
  startIndexMap := [0]
  indexVectorDim := 1
  sliceSizes := ![1]
  wf := gather_S1000000_S131072x1_S131072_n_0_n_n_0_1_1_wf
def gather_S2x32_S131072x1_S131072x32_1_0_n_n_0_1_132 : GatherDims S2x32 S131072x1 S131072x32 where
  offsetDims := [1]
  collapsedSliceDims := [0]
  operandBatchingDims := []
  startIndicesBatchingDims := []
  startIndexMap := [0]
  indexVectorDim := 1
  sliceSizes := ![1, 32]
  wf := gather_S2x32_S131072x1_S131072x32_1_0_n_n_0_1_132_wf
def gather_S8x32_S131072x1_S131072x32_1_0_n_n_0_1_132 : GatherDims S8x32 S131072x1 S131072x32 where
  offsetDims := [1]
  collapsedSliceDims := [0]
  operandBatchingDims := []
  startIndicesBatchingDims := []
  startIndexMap := [0]
  indexVectorDim := 1
  sliceSizes := ![1, 32]
  wf := gather_S8x32_S131072x1_S131072x32_1_0_n_n_0_1_132_wf
def gather_S1000000x32_S131072x1_S131072x32_1_0_n_n_0_1_132 : GatherDims S1000000x32 S131072x1 S131072x32 where
  offsetDims := [1]
  collapsedSliceDims := [0]
  operandBatchingDims := []
  startIndicesBatchingDims := []
  startIndexMap := [0]
  indexVectorDim := 1
  sliceSizes := ![1, 32]
  wf := gather_S1000000x32_S131072x1_S131072x32_1_0_n_n_0_1_132_wf
def dot_S131072x96_S96x32_S131072x32_1_0_0_1_n_n : DotDims S131072x96 S96x32 S131072x32 where
  lhsContracting := [1]
  rhsContracting := [0]
  lhsNonContracting := [0]
  rhsNonContracting := [1]
  lhsBatch := []
  rhsBatch := []
  wf := dot_S131072x96_S96x32_S131072x32_1_0_0_1_n_n_wf

class Facts : Prop extends Facts₀ where

variable [Facts]
-- ==== Proof.Spec.lean ====
/-
  The embedding layer as one function of its inputs, and the two sum laws that join its two computations.

  For node `n` and output feature `j` the layer computes
    `max (Σ_k g[rg n, k]·W[j, k] + Σ_k a[ra n, k]·W[j, 32 + k] + Σ_k u[ru n, k]·W[j, 64 + k] + b[j]) 0`,
  the rows `rg n`, `ra n`, `ru n` of the gender, age and user tables being whatever the lookups select. One program
  forms the 96-term product of the concatenated row `[g | a | u]` with row `j` of `W`; the other adds the three
  32-term products, the user one computed as a 128-term product of four packed nodes with a block-diagonal matrix
  whose off-diagonal blocks are zero. Both are sums of the same products: a sum over `Fin 96` is the sum of its three
  bands (`sum_three_bands`), and a sum over `Fin 128` whose terms vanish off one band of 32 is the sum over that band
  (`sum_block_diag`). Over the extended reals these need only that addition is commutative and associative and that
  `0 · x = 0`, `1 · x = x`, which hold at the infinities too, so no finiteness is used.
-/
import Idealize.ShloMosaic.PureOps.Ideal
import Idealize.ShloMosaic.Lib.ValueIdx
import Mathlib.Algebra.BigOperators.Fin
import Mathlib.Logic.Equiv.Fin.Basic

noncomputable section

open scoped BigOperators

namespace Cert.Spec

open Idealize.ShloMosaic Idealize.ShloMosaic.ValueIdx

/-- Column `off + k` of the 96 columns of `W`, for `k` in a band of 32 starting at `off`. -/
abbrev col (off : Nat) (hoff : off + 32 ≤ 96) (k : Fin 32) : Fin 96 := ⟨off + k.val, by omega⟩

/-- Row `v` of a table of 32-vectors against the band of row `j` of `W` that starts at column `off`. -/
def bandDot {V : Nat} (T : (⟨2, ![V, 32]⟩ : Shape).Idx → EReal) (W : (⟨2, ![32, 96]⟩ : Shape).Idx → EReal)
    (off : Nat) (hoff : off + 32 ≤ 96) (v : Fin V) (j : Fin 32) : EReal :=
  ∑ k : Fin 32, T (ix2 v k) * W (ix2 j (col off hoff k))

/-- The layer's output for node `n`, feature `j`. -/
def Gat (ru : Fin 131072 → Fin 1000000) (rg : Fin 131072 → Fin 2) (ra : Fin 131072 → Fin 8)
    (U : (⟨2, ![1000000, 32]⟩ : Shape).Idx → EReal) (Ge : (⟨2, ![2, 32]⟩ : Shape).Idx → EReal)
    (A : (⟨2, ![8, 32]⟩ : Shape).Idx → EReal) (W : (⟨2, ![32, 96]⟩ : Shape).Idx → EReal)
    (B : (⟨1, ![32]⟩ : Shape).Idx → EReal) (n : Fin 131072) (j : Fin 32) : EReal :=
  max ((bandDot Ge W 0 (by omega) (rg n) j + bandDot A W 32 (by omega) (ra n) j + bandDot U W 64 (by omega) (ru n) j)
    + B (ix1 j)) 0

/-- The whole output array. -/
def G (ru : Fin 131072 → Fin 1000000) (rg : Fin 131072 → Fin 2) (ra : Fin 131072 → Fin 8)
    (U : (⟨2, ![1000000, 32]⟩ : Shape).Idx → EReal) (Ge : (⟨2, ![2, 32]⟩ : Shape).Idx → EReal)
    (A : (⟨2, ![8, 32]⟩ : Shape).Idx → EReal) (W : (⟨2, ![32, 96]⟩ : Shape).Idx → EReal)
    (B : (⟨1, ![32]⟩ : Shape).Idx → EReal) : (⟨2, ![131072, 32]⟩ : Shape).Idx → EReal :=
  fun i => Gat ru rg ra U Ge A W B (i 0) (i 1)

theorem G_apply (ru : Fin 131072 → Fin 1000000) (rg : Fin 131072 → Fin 2) (ra : Fin 131072 → Fin 8)
    (U : (⟨2, ![1000000, 32]⟩ : Shape).Idx → EReal) (Ge : (⟨2, ![2, 32]⟩ : Shape).Idx → EReal)
    (A : (⟨2, ![8, 32]⟩ : Shape).Idx → EReal) (W : (⟨2, ![32, 96]⟩ : Shape).Idx → EReal)
    (B : (⟨1, ![32]⟩ : Shape).Idx → EReal) (n : Fin 131072) (j : Fin 32) :
    G ru rg ra U Ge A W B (ix2 n j) = Gat ru rg ra U Ge A W B n j := rfl

/-- A sum over 96 positions is the sum of its three bands of 32. -/
theorem sum_three_bands {M : Type*} [AddCommMonoid M] (f : Fin 96 → M) :
    ∑ k : Fin 96, f k
      = ∑ k : Fin 32, f (col 0 (by omega) k) + ∑ k : Fin 32, f (col 32 (by omega) k) + ∑ k : Fin 32, f (col 64 (by omega) k) := by
  have h := Fin.sum_univ_add (a := 32) (b := 64) (f : Fin (32 + 64) → M)
  have h2 := Fin.sum_univ_add (a := 32) (b := 32) (fun i : Fin (32 + 32) => f (Fin.natAdd 32 i))
  rw [show (∑ k : Fin 96, f k) = ∑ k : Fin (32 + 64), f k from rfl, h,
    show (∑ i : Fin 64, f (Fin.natAdd 32 i)) = ∑ i : Fin (32 + 32), f (Fin.natAdd 32 i) from rfl, h2, ← add_assoc]
  refine congrArg₂ (· + ·) (congrArg₂ (· + ·) ?_ ?_) ?_
  · exact Finset.sum_congr rfl fun k _ => congrArg f (Fin.ext (by simp [col]))
  · exact Finset.sum_congr rfl fun k _ => congrArg f (Fin.ext (by simp [col]))
  · exact Finset.sum_congr rfl fun k _ => congrArg f (Fin.ext (by simp [col]; omega))

/-- Position `32·a + b` of 128: band `a` of four, place `b` in the band. -/
abbrev pos (a : Fin 4) (b : Fin 32) : Fin 128 := ⟨32 * a.val + b.val, by omega⟩

/-- A sum over `Fin 128` as the double sum over bands and places. -/
theorem sum_bands {M : Type*} [AddCommMonoid M] (f : Fin 128 → M) :
    ∑ k : Fin 128, f k = ∑ a : Fin 4, ∑ b : Fin 32, f (pos a b) := by
  rw [show (∑ k : Fin 128, f k) = ∑ k : Fin (4 * 32), f k from rfl,
    ← Equiv.sum_comp (finProdFinEquiv (m := 4) (n := 32)) f, Fintype.sum_prod_type]
  refine Finset.sum_congr rfl fun a _ => Finset.sum_congr rfl fun b _ => congrArg f (Fin.ext ?_)
  simp [finProdFinEquiv, pos]
  omega

/-- A product of a packed row with a block-diagonal matrix: when the right factor at position `(a, b)` is
    `[a = q] · g b`, only band `q` contributes. -/
theorem sum_block_diag (q : Fin 4) (L R : Fin 128 → EReal) (x : Fin 4 → Fin 32 → EReal) (g : Fin 32 → EReal)
    (hL : ∀ a b, L (pos a b) = x a b)
    (hR : ∀ a b, R (pos a b) = (if a = q then (1 : EReal) else 0) * g b) :
    ∑ k : Fin 128, L k * R k = ∑ b : Fin 32, x q b * g b := by
  rw [sum_bands]
  have hband : ∀ a : Fin 4, (∑ b : Fin 32, L (pos a b) * R (pos a b)) = if a = q then ∑ b : Fin 32, x q b * g b else 0 := by
    intro a
    by_cases h : a = q
    · subst h
      rw [if_pos rfl]
      exact Finset.sum_congr rfl fun b _ => by rw [hL, hR, if_pos rfl, one_mul]
    · rw [if_neg h]
      exact Finset.sum_eq_zero fun b _ => by rw [hR, if_neg h, zero_mul, mul_zero]
  rw [Finset.sum_congr rfl fun a _ => hband a, Finset.sum_ite_eq' Finset.univ q, if_pos (Finset.mem_univ q)]

/-- The user product added to the folded bias is the three products added to the bias. -/
theorem regroup (a b c d : EReal) : c + ((a + b) + d) = ((a + b) + c) + d := by
  rw [← add_assoc, add_comm c (a + b)]

end Cert.Spec

end
-- ==== Proof.LibRowGather.lean ====
/-
  A gather of whole rows read at an entry.

  `x[idx]` of a table `x : [V, D]` at a column of start indices `idx : [N, 1]` is a `stablehlo.gather` whose result
  `[N, D]` takes, for each `n`, the row of `x` that start index `n` names: offset axis 1, collapsed slice axis 0, start
  index map `[0]`, the index vector on axis 1, slices `[1, D]`. Entry `(n, j)` of the result is `x` at row
  `rowOf idx n` and column `j`, where the row is the start index read as a signed integer and clamped into
  `[0, V − 1]`. The row depends on the start indices only, not on the table: two tables of the same height gathered at
  the same start indices are read at the same rows.
-/
import Idealize.ShloMosaic.PureOps.Ideal
import Idealize.ShloMosaic.Lib.ValueIdx

noncomputable section

namespace Cert.Lib.RowGather

open Idealize.ShloMosaic Idealize.ShloMosaic.ValueIdx

variable {α : Type}

/-- The dimension numbers of a gather of rows: operand `[V, D]`, start indices `[N, 1]`, result `[N, D]`. -/
abbrev rowDims (V N D : Nat)
    (wf : GatherDims.WF ⟨2, ![V, D]⟩ ⟨2, ![N, 1]⟩ ⟨2, ![N, D]⟩ [1] [0] [] [0] [] 1 ![1, D]) :
    GatherDims ⟨2, ![V, D]⟩ ⟨2, ![N, 1]⟩ ⟨2, ![N, D]⟩ where
  offsetDims := [1]
  collapsedSliceDims := [0]
  operandBatchingDims := []
  startIndicesBatchingDims := []
  startIndexMap := [0]
  indexVectorDim := 1
  sliceSizes := ![1, D]
  wf := wf

/-- The row start index `n` names in a table of height `V`: the index read signed, clamped into `[0, V − 1]`. -/
def rowOf {V N w : Nat} (hV : 0 < V) (idx : IVec ⟨2, ![N, 1]⟩ w) (n : Fin N) : Fin V :=
  ⟨min (idx (ix2 n (0 : Fin 1))).toInt.toNat (V - 1), by omega⟩

/-- On the table's row axis the operand index is the clamped start index: that axis is collapsed (no offset
    coordinate) and is no batching axis. -/
theorem operandIdx_row {V N D w : Nat} (hV : 0 < V)
    (wf : GatherDims.WF ⟨2, ![V, D]⟩ ⟨2, ![N, 1]⟩ ⟨2, ![N, D]⟩ [1] [0] [] [0] [] 1 ![1, D])
    (idx : IVec ⟨2, ![N, 1]⟩ w) (n : Fin N) (j : Fin D) :
    ((rowDims V N D wf).operandIdx (ix2 n j) idx 0).val = (rowOf hV idx n).val := by
  show (rowDims V N D wf).start (ix2 n j) idx 0 + (rowDims V N D wf).batchCoord (ix2 n j) 0
    + (rowDims V N D wf).offCoord (ix2 n j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims V N D wf).startIndexMap from List.mem_singleton.mpr rfl)]
  have hsi : (rowDims V N D wf).siIdx (ix2 n j) ⟨List.idxOf (0 : Fin 2) (rowDims V N D wf).startIndexMap,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]
  rfl

/-- On the table's column axis the operand index is the result's column: the start index map does not name that axis,
    and it is the one offset axis. -/
theorem operandIdx_col {V N D w : Nat}
    (wf : GatherDims.WF ⟨2, ![V, D]⟩ ⟨2, ![N, 1]⟩ ⟨2, ![N, D]⟩ [1] [0] [] [0] [] 1 ![1, D])
    (idx : IVec ⟨2, ![N, 1]⟩ w) (n : Fin N) (j : Fin D) :
    ((rowDims V N D wf).operandIdx (ix2 n j) idx 1).val = j.val := by
  show (rowDims V N D wf).start (ix2 n j) idx 1 + (rowDims V N D wf).batchCoord (ix2 n j) 1
    + (rowDims V N D wf).offCoord (ix2 n j) 1 = _
  rw [GatherDims.batchCoord_eq_zero _ _ _ List.not_mem_nil]
  unfold GatherDims.start
  rw [dif_neg (show ¬(1 : Fin 2) ∈ (rowDims V N D wf).startIndexMap from
    fun h => absurd (List.mem_singleton.mp h) (show ¬((1 : Fin 2) = 0) by decide))]
  simp only [Nat.zero_add, Nat.add_zero]
  unfold GatherDims.offCoord
  rw [dif_pos (show (1 : Fin 2) ∈ (rowDims V N D wf).sKept from
    ((rowDims V N D wf).mem_sKept 1).mpr ⟨fun h => absurd (List.mem_singleton.mp h) (show ¬((1 : Fin 2) = 0) by decide), List.not_mem_nil⟩)]
  rfl

/-- Entry `(n, j)` of the gathered rows is the table at row `rowOf idx n`, column `j`. -/
theorem gather_rows_apply {V N D w : Nat} (hV : 0 < V)
    (wf : GatherDims.WF ⟨2, ![V, D]⟩ ⟨2, ![N, 1]⟩ ⟨2, ![N, D]⟩ [1] [0] [] [0] [] 1 ![1, D])
    (x : (⟨2, ![V, D]⟩ : Shape).Idx → α) (idx : IVec ⟨2, ![N, 1]⟩ w) (n : Fin N) (j : Fin D) :
    Host.gather (rowDims V N D wf) x idx (ix2 n j) = x (ix2 (rowOf hV idx n) j) := by
  unfold Host.gather
  congr 1
  funext a
  refine Fin.ext ?_
  match a with
  | ⟨0, _⟩ => exact operandIdx_row hV wf idx n j
  | ⟨1, _⟩ => exact operandIdx_col wf idx n j

end Cert.Lib.RowGather

end
-- ==== Proof.RefValue.lean ====
/-
  What the reference computes, entry by entry.

  The reference looks up, for node `n`, the gender row `g[rg n]`, the age row `a[ra n]` and the user row `u[ru n]`,
  lays them side by side as one row of 96, multiplies by `Wᵀ`, adds the bias and takes the positive part. Read at entry
  `(n, j)`: the 96-term product is the sum of its three bands of 32, and on each band the concatenated row is the
  looked-up row of one table, so the entry is the layer function `Gat` at the rows the lookups select.
-/
import proofs.«426555_j12120397709897_3_alg».proof.Proof.Gen.ReferenceIdeal.Read
import proofs.«426555_j12120397709897_3_alg».proof.Proof.Spec
import proofs.«426555_j12120397709897_3_alg».proof.Proof.LibRowGather

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Spec Cert.Lib.RowGather

variable (x0 : (⟨S131072, .i32⟩ : BufTy).Contents (Elt Ideal)) (x1 x2 : (⟨S1000000, .i32⟩ : BufTy).Contents (Elt Ideal))
  (x3 : (⟨S1000000x32, .f32⟩ : BufTy).Contents (Elt Ideal)) (x4 : (⟨S2x32, .f32⟩ : BufTy).Contents (Elt Ideal))
  (x5 : (⟨S8x32, .f32⟩ : BufTy).Contents (Elt Ideal)) (x6 : (⟨S32x96, .f32⟩ : BufTy).Contents (Elt Ideal))
  (x7 : (⟨S32, .f32⟩ : BufTy).Contents (Elt Ideal))

/-- The user row node `n` selects: its node id, wrapped when negative, clamped into the table. -/
def rowU : Fin 131072 → Fin 1000000 := rowOf (by omega) (val_main_v33 (F := Ideal) x0)
/-- The gender row node `n` selects: the gender id stored for the node, wrapped and clamped likewise. -/
def rowG : Fin 131072 → Fin 2 := rowOf (by omega) (val_main_v12 (F := Ideal) x0 x1)
/-- The age row node `n` selects. -/
def rowA : Fin 131072 → Fin 8 := rowOf (by omega) (val_main_v26 (F := Ideal) x0 x2)

/-- The looked-up gender rows at `(n, k)`. -/
theorem gender_rows_apply (n : Fin 131072) (k : Fin 32) :
    val_main_v13 (F := Ideal) x0 x1 x4 (ix2 n k) = x4 (ix2 (rowG x0 x1 n) k) := by
  unfold val_main_v13 rowG
  exact gather_rows_apply (by omega) gather_S2x32_S131072x1_S131072x32_1_0_n_n_0_1_132.wf x4 _ n k

/-- The looked-up age rows at `(n, k)`. -/
theorem age_rows_apply (n : Fin 131072) (k : Fin 32) :
    val_main_v27 (F := Ideal) x0 x2 x5 (ix2 n k) = x5 (ix2 (rowA x0 x2 n) k) := by
  unfold val_main_v27 rowA
  exact gather_rows_apply (by omega) gather_S8x32_S131072x1_S131072x32_1_0_n_n_0_1_132.wf x5 _ n k

/-- The looked-up user rows at `(n, k)`. -/
theorem user_rows_apply (n : Fin 131072) (k : Fin 32) :
    val_main_v34 (F := Ideal) x0 x3 (ix2 n k) = x3 (ix2 (rowU x0 n) k) := by
  unfold val_main_v34 rowU
  exact gather_rows_apply (by omega) gather_S1000000x32_S131072x1_S131072x32_1_0_n_n_0_1_132.wf x3 _ n k

/-- The concatenated row on its first band is the gender row … -/
theorem cat_gender (n : Fin 131072) (k : Fin 32) :
    val_main_v35 (F := Ideal) x0 x1 x2 x3 x4 x5 (ix2 n (col 0 (by omega) k)) = val_main_v13 (F := Ideal) x0 x1 x4 (ix2 n k) := by
  unfold val_main_v35
  exact concatenate_apply_piece (t := S131072x96) (1 : Fin S131072x96.rank)
    [⟨S131072x32, val_main_v13 (F := Ideal) x0 x1 x4⟩, ⟨S131072x32, val_main_v27 (F := Ideal) x0 x2 x5⟩, ⟨S131072x32, val_main_v34 (F := Ideal) x0 x3⟩]
    concatenates_S131072x32_S131072x32_S131072x32_S131072x96_d1 (ix2 n (col 0 (by omega) k))
    0 (by simp) S131072x32 _ rfl rfl 0 rfl (ix2 n k)
    (fun b hb => by match b with | ⟨0, _⟩ => rfl | ⟨1, _⟩ => exact absurd rfl hb) rfl

/-- … on its second the age row … -/
theorem cat_age (n : Fin 131072) (k : Fin 32) :
    val_main_v35 (F := Ideal) x0 x1 x2 x3 x4 x5 (ix2 n (col 32 (by omega) k)) = val_main_v27 (F := Ideal) x0 x2 x5 (ix2 n k) := by
  unfold val_main_v35
  exact concatenate_apply_piece (t := S131072x96) (1 : Fin S131072x96.rank)
    [⟨S131072x32, val_main_v13 (F := Ideal) x0 x1 x4⟩, ⟨S131072x32, val_main_v27 (F := Ideal) x0 x2 x5⟩, ⟨S131072x32, val_main_v34 (F := Ideal) x0 x3⟩]
    concatenates_S131072x32_S131072x32_S131072x32_S131072x96_d1 (ix2 n (col 32 (by omega) k))
    1 (by simp) S131072x32 _ rfl rfl 32 rfl (ix2 n k)
    (fun b hb => by match b with | ⟨0, _⟩ => rfl | ⟨1, _⟩ => exact absurd rfl hb) rfl

/-- … and on its third the user row. -/
theorem cat_user (n : Fin 131072) (k : Fin 32) :
    val_main_v35 (F := Ideal) x0 x1 x2 x3 x4 x5 (ix2 n (col 64 (by omega) k)) = val_main_v34 (F := Ideal) x0 x3 (ix2 n k) := by
  unfold val_main_v35
  exact concatenate_apply_piece (t := S131072x96) (1 : Fin S131072x96.rank)
    [⟨S131072x32, val_main_v13 (F := Ideal) x0 x1 x4⟩, ⟨S131072x32, val_main_v27 (F := Ideal) x0 x2 x5⟩, ⟨S131072x32, val_main_v34 (F := Ideal) x0 x3⟩]
    concatenates_S131072x32_S131072x32_S131072x32_S131072x96_d1 (ix2 n (col 64 (by omega) k))
    2 (by simp) S131072x32 _ rfl rfl 64 rfl (ix2 n k)
    (fun b hb => by match b with | ⟨0, _⟩ => rfl | ⟨1, _⟩ => exact absurd rfl hb) rfl

/-- The product's left index at `(n, j)`, position `k`, is `(n, k)` … -/
theorem lidx_eq (n : Fin 131072) (j : Fin 32) (k : Fin 96) : lidx_main_v37 (ix2 n j) k = ix2 n k :=
  funext fun a => Fin.ext (by match a with | ⟨0, _⟩ => rfl | ⟨1, _⟩ => rfl)

/-- … and the transposed weight there is `W` at `(j, k)`. -/
theorem wT_apply (n : Fin 131072) (j : Fin 32) (k : Fin 96) :
    val_main_v36 (F := Ideal) x6 (ridx_main_v37 (ix2 n j) k) = x6 (ix2 j k) := by
  rw [val_main_v36_apply]
  exact congrArg x6 (funext fun a => Fin.ext (by match a with | ⟨0, _⟩ => rfl | ⟨1, _⟩ => rfl))

/-- The broadcast bias at `(n, j)` is `b j`. -/
theorem bias_apply (n : Fin 131072) (j : Fin 32) : val_main_v39 (F := Ideal) x7 (ix2 n j) = x7 (ix1 j) := by
  rw [val_main_v39_apply, val_main_v38_apply]
  exact congrArg x7 (funext fun a => Fin.ext (by match a with | ⟨0, _⟩ => rfl))

/-- THE REFERENCE AT AN ENTRY: the layer function at the rows its lookups select. -/
theorem result_apply (n : Fin 131072) (j : Fin 32) :
    val_main_v41 (F := Ideal) x0 x1 x2 x3 x4 x5 x6 x7 (ix2 n j)
      = Gat (rowU x0) (rowG x0 x1) (rowA x0 x2) x3 x4 x5 x6 x7 n j := by
  rw [val_main_v41_apply, val_main_v40_apply, val_main_v37_apply, val_main_call0_v0_apply, val_main_call0_cst_apply,
    bias_apply, sum_three_bands]
  simp only [lidx_eq, wT_apply, cat_gender, cat_age, cat_user, gender_rows_apply, age_rows_apply, user_rows_apply,
    Ideal.ofBits_def, Ideal.addf_def, Ideal.maximumf_def, Ideal.ofBits_zero_f32]
  rfl

/-- The reference's whole result is the layer function. -/
theorem result_eq :
    val_main_v41 (F := Ideal) x0 x1 x2 x3 x4 x5 x6 x7 = G (rowU x0) (rowG x0 x1) (rowA x0 x2) x3 x4 x5 x6 x7 := by
  funext i
  obtain ⟨n, j, rfl⟩ : ∃ (n : Fin 131072) (j : Fin 32), i = ix2 n j := ⟨i 0, i 1, eq_ix2 i⟩
  exact result_apply x0 x1 x2 x3 x4 x5 x6 x7 n j

end Cert.ReferenceIdeal.RefValue

end
-- ==== Proof.LibPlainProduct.lean ====
/-
  A plain matrix product read at an entry.

  A `tpu.matmul` or a host `dot_general` of an `[M, K]` matrix by a `[K, N]` matrix whose dimension numbers contract
  axis 1 of the left operand with axis 0 of the right one, with no batch axes, is, over the extended reals and into a
  zero accumulator, the textbook product: entry `(p, q)` is `∑ k, l (p, k) · r (k, q)`. The library states the product
  over the record's own contraction index and operand index maps; here those are read once, for every record of this
  kind (`IsPlain`, six equations a printed record proves by `rfl`), at any three extents.
-/
import Idealize.ShloMosaic.PureOps.Ideal.Laws
import Idealize.ShloMosaic.Lib.ValueIdx

noncomputable section

open scoped BigOperators

namespace Cert.Lib.PlainProduct

open Idealize.ShloMosaic Idealize.ShloMosaic.ValueIdx

variable {M K N : Nat}

/-- The dimension numbers of a plain product `[M, K] · [K, N]`: the left operand contracts its axis 1, the right one its
    axis 0, the kept axes are the left operand's 0 and the right operand's 1, and there is no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

/-- One axis is contracted … -/
theorem contr_rank (h : IsPlain D) : D.contr.rank = 1 := by
  rw [D.rank_contr, h.lc]; rfl

/-- … and its extent is `K`. -/
theorem contr_size (h : IsPlain D) (h0 : 0 < D.contr.rank) : D.contr.size ⟨0, h0⟩ = K := by
  rw [D.size_contr 0 (by rw [h.lc]; exact Nat.one_pos)]
  simp only [h.lc, List.getElem_cons_zero]
  rfl

/-- A coordinate of an index does not depend on how its axis number is written. -/
private theorem coord_congr {s : Shape} (j : s.Idx) (a b : Nat) (ha : a < s.rank) (hb : b < s.rank) (e : a = b) :
    (j ⟨a, ha⟩).val = (j ⟨b, hb⟩).val := by subst e; rfl

/-- The left operand is read at the result's row … -/
theorem lhsIdx_row (h : IsPlain D) (j : (⟨2, ![M, N]⟩ : Shape).Idx) (k : D.contr.Idx) :
    (D.lhsIdx j k 0).val = (j 0).val := by
  unfold DotDims.lhsIdx
  rw [dif_neg (show ¬(0 : Fin (⟨2, ![M, K]⟩ : Shape).rank) ∈ D.lhsBatch by rw [h.lb]; exact List.not_mem_nil),
    dif_pos (show (0 : Fin (⟨2, ![M, K]⟩ : Shape).rank) ∈ D.lhsNonContracting by rw [h.ln]; exact List.mem_singleton.mpr rfl)]
  simp only [Fin.val_cast]
  exact coord_congr j _ _ _ _ (by simp [h.lb, h.ln])

/-- … and at the contraction position; -/
theorem lhsIdx_col (h : IsPlain D) (j : (⟨2, ![M, N]⟩ : Shape).Idx) (k : D.contr.Idx) :
    (D.lhsIdx j k 1).val = (k ⟨0, by rw [contr_rank h]; exact Nat.one_pos⟩).val :=
  D.lhsIdx_val_of_single h.lc j k

/-- the right operand at the contraction position … -/
theorem rhsIdx_row (h : IsPlain D) (j : (⟨2, ![M, N]⟩ : Shape).Idx) (k : D.contr.Idx) :
    (D.rhsIdx j k 0).val = (k ⟨0, by rw [contr_rank h]; exact Nat.one_pos⟩).val :=
  D.rhsIdx_val_of_single h.rc j k

/-- … and at the result's column. -/
theorem rhsIdx_col (h : IsPlain D) (j : (⟨2, ![M, N]⟩ : Shape).Idx) (k : D.contr.Idx) :
    (D.rhsIdx j k 1).val = (j 1).val := by
  unfold DotDims.rhsIdx
  rw [dif_neg (show ¬(1 : Fin (⟨2, ![K, N]⟩ : Shape).rank) ∈ D.rhsBatch by rw [h.rb]; exact List.not_mem_nil),
    dif_pos (show (1 : Fin (⟨2, ![K, N]⟩ : Shape).rank) ∈ D.rhsNonContracting by rw [h.rn]; exact List.mem_singleton.mpr rfl)]
  simp only [Fin.val_cast]
  exact coord_congr j _ _ _ _ (by simp [h.lb, h.ln, h.rn])

/-- The sum over the record's contraction index of the operands' products, at entry `(p, q)`, is the sum over
    `k : Fin K` of `l (p, k) · r (k, q)`. -/
theorem sum_contr (h : IsPlain D) (l : (⟨2, ![M, K]⟩ : Shape).Idx → EReal) (r : (⟨2, ![K, N]⟩ : Shape).Idx → EReal)
    (p : Fin M) (q : Fin N) :
    ∑ k : D.contr.Idx, l (D.lhsIdx (ix2 p q) k) * r (D.rhsIdx (ix2 p q) k) = ∑ k : Fin K, l (ix2 p k) * r (ix2 k q) := by
  have hr := contr_rank h
  have hs : D.contr.size ⟨0, by omega⟩ = K := contr_size h _
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_row h _ _
    | ⟨1, _⟩ => exact (lhsIdx_col h _ _).trans hk)
  have er : D.rhsIdx (ix2 p q) ((contrEquiv1 D K hr hs).symm k) = ix2 k q := funext fun a => Fin.ext (by
    match a with
    | ⟨0, _⟩ => exact (rhsIdx_row h _ _).trans hk
    | ⟨1, _⟩ => exact rhsIdx_col h _ _)
  rw [el, er]

/-- A `tpu.matmul` of this kind into the zero splat, at entry `(p, q)`. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) := by
  rw [Ideal.matmul_constant_zero_apply]
  exact sum_contr h l r p q

/-- The host's `dot_general` of this kind, at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply]
  exact sum_contr h l r p q

end Cert.Lib.PlainProduct

end
-- ==== Proof.KernelBlock.lean ====
/-
  The packed product, block by block, and the array it leaves.

  The kernel's grid has four points; point `t` takes rows `8192·t … 8192·t + 8191` of the packed user rows `X` and of
  the packed bias `Bp` (both `[32768, 128]`), the whole `[128, 128]` matrix `Wb`, and writes rows `8192·t …` of the
  output: entry `(r, l)` is `max (Σ_k X[r, k]·Wb[k, l] + Bp[r, l]) 0`. Each written block is the restriction of that
  one whole-array function, and the four blocks cover the array, so the array after the run is that function.
-/
import proofs.«426555_j12120397709897_3_alg».proof.Proof.Gen.KernelIdeal.Frame
import proofs.«426555_j12120397709897_3_alg».proof.Proof.LibPlainProduct
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

open scoped BigOperators

namespace Cert.KernelIdeal.Block

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The packed layer on whole arrays: entry `(r, l)` of `max (X · Wb + Bp) 0`. -/
def packed (X Bp : S32768x128.Idx → EReal) (Wb : S128x128.Idx → EReal) : S32768x128.Idx → EReal :=
  fun i => max ((∑ k : Fin 128, X (ix2 (i 0) k) * Wb (ix2 k (i 1))) + Bp i) 0

theorem packed_apply (X Bp : S32768x128.Idx → EReal) (Wb : S128x128.Idx → EReal) (r : Fin 32768) (l : Fin 128) :
    packed X Bp Wb (ix2 r l) = max ((∑ k : Fin 128, X (ix2 r k) * Wb (ix2 k l)) + Bp (ix2 r l)) 0 := rfl

/-- The kernel's matrix product is a plain one: rows by columns, no batch axis. -/
theorem dot_plain : Cert.Lib.PlainProduct.IsPlain dot_S8192x128_S128x128_S8192x128_1_0_0_1_n_n :=
  ⟨rfl, rfl, rfl, rfl, rfl, rfl⟩

/-- The body's stored value at entry `(p, q)` of the block, from its three loaded blocks. -/
theorem payload_apply (x0 x1 : Vec Ideal S8192x128 .f32) (x2 : Vec Ideal S128x128 .f32) (p : Fin 8192) (q : Fin 128) :
    k0_pay1 (F := Ideal) x0 x2 x1 (ix2 p q) = max ((∑ k : Fin 128, x0 (ix2 p k) * x2 (ix2 k q)) + x1 (ix2 p q)) 0 := by
  unfold k0_pay1
  simp only [shapeCast_self]
  show max (FloatOps.matmul (F := Ideal) dot_S8192x128_S128x128_S8192x128_1_0_0_1_n_n none x0 x2 (constant S8192x128 .f32 0x00000000#32) (ix2 p q)
    + x1 (ix2 p q)) (Ideal.ofBits .f32 0x00000000#32) = _
  rw [Cert.Lib.PlainProduct.matmul_zero_apply dot_plain, Ideal.ofBits_zero_f32]

/-! ## What a point writes back, and the array after the run -/

variable (m : (ℓ : Loc nD τ sig) → Buf (Elt Ideal) ℓ)

theorem origin : (![0, 0] : Fin 2 → Nat) = fun _ => 0 := funext fun a => by fin_cases a <;> rfl

/-- The index maps over the four points: the user rows, the bias and the output are all at block row `t`, block
    column 0; the matrix is always at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A point is one of four. -/
theorem point_lt (t : Fin cfg0.N) : t.val < 4 := Nat.lt_of_lt_of_eq t.isLt N_0

/-- Row `p` of point `t`'s block is row `8192·t + p` of the array. -/
abbrev arow (t : Fin cfg0.N) (p : Fin 8192) : Fin 32768 := ⟨t.val * 8192 + p.val, by have := point_lt t; omega⟩

/-- Entry `(p, q)` of point `t`'s output block is entry `(8192·t + p, q)` of the output array. -/
theorem out_emb (t : Fin cfg0.N) (p : Fin 8192) (q : Fin 128) :
    ((cfg0.win 3).blk t).view.emb (ix2 p q) = ix2 (arow t p) q := by
  obtain ⟨-, -, -, -, -, -, e30, e31⟩ := idx_facts t
  exact funext fun a => Fin.ext (by
    match a with
    | ⟨0, _⟩ => show win0_3.index t (0 : Fin 2) * 8192 + 1 * p.val = t.val * 8192 + p.val; omega
    | ⟨1, _⟩ => show win0_3.index t (1 : Fin 2) * 128 + 1 * q.val = q.val; omega)

/-- The user-rows block of point `t` is rows `8192·t …` of the packed user rows. -/
theorem user_block (c : Dev nD) (t : Fin cfg0.N) (p : Fin 8192) (k : Fin 128) :
    iblk m c 0 t (ix2 p k) = V m c main_v46 (ix2 (arow t p) k) := by
  obtain ⟨e00, e01, -, -, -, -, -, -⟩ := idx_facts t
  show V m c main_v46 (((cfg0.win 0).blk t).view.emb (ix2 p k)) = _
  refine congrArg (V m c main_v46) (funext fun a => Fin.ext ?_)
  match a with
  | ⟨0, _⟩ => show win0_0.index t (0 : Fin 2) * 8192 + 1 * p.val = t.val * 8192 + p.val; omega
  | ⟨1, _⟩ => show win0_0.index t (1 : Fin 2) * 128 + 1 * k.val = k.val; omega

/-- The bias block of point `t` is rows `8192·t …` of the packed bias. -/
theorem bias_block (c : Dev nD) (t : Fin cfg0.N) (p : Fin 8192) (q : Fin 128) :
    iblk m c 1 t (ix2 p q) = V m c main_v47 (ix2 (arow t p) q) := by
  obtain ⟨-, -, e10, e11, -, -, -, -⟩ := idx_facts t
  show V m c main_v47 (((cfg0.win 1).blk t).view.emb (ix2 p q)) = _
  refine congrArg (V m c main_v47) (funext fun a => Fin.ext ?_)
  match a with
  | ⟨0, _⟩ => show win0_1.index t (0 : Fin 2) * 8192 + 1 * p.val = t.val * 8192 + p.val; omega
  | ⟨1, _⟩ => show win0_1.index t (1 : Fin 2) * 128 + 1 * q.val = q.val; omega

/-- The matrix block of every point is the whole matrix. -/
theorem weight_block (c : Dev nD) (t : Fin cfg0.N) (k q : Fin 128) :
    iblk m c 2 t (ix2 k q) = V m c main_v55 (ix2 k q) := by
  obtain ⟨-, -, -, -, e20, e21, -, -⟩ := idx_facts t
  show V m c main_v55 (((cfg0.win 2).blk t).view.emb (ix2 k q)) = _
  refine congrArg (V m c main_v55) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

set_option maxHeartbeats 1000000 in
/-- WHAT POINT `t` WRITES BACK is block `t` of the packed layer of the three arrays the region finds. -/
theorem flushed_eq (c : Dev nD) (t : Fin cfg0.N) :
    (dats m 0 c).flushed 3 t
      = ((cfg0.win 3).blk t).view.read (Elt Ideal) (packed (V m c main_v46) (V m c main_v47) (V m c main_v55)) := by
  show (cfg0.win 3).cut (grid0.coords t) ((dats m 0 c).after 3 t) = _
  rw [after0_3]
  unfold out0_3
  rw [View.canon_unit_zero origin]
  simp only [View.ld_unit_zero (S := S8192x128) origin, View.ld_unit_zero (S := S128x128) origin]
  funext y
  obtain ⟨p, q, rfl⟩ : ∃ (p : Fin 8192) (q : Fin 128), y = ix2 p q := ⟨y 0, y 1, eq_ix2 y⟩
  show k0_pay1 (F := Ideal) (iblk m c 0 t) (iblk m c 2 t) (iblk m c 1 t) (ix2 p q)
    = packed (V m c main_v46) (V m c main_v47) (V m c main_v55) (((cfg0.win 3).blk t).view.emb (ix2 p q))
  rw [out_emb, packed_apply]
  refine (payload_apply _ _ _ p q).trans ?_
  rw [bias_block, Finset.sum_congr rfl fun k _ => by rw [user_block m c t p k, weight_block m c t k q]]

/-- An index of the output array is in point `t`'s block iff each coordinate is in the block's range on its axis. -/
theorem mem_blk (t : Fin cfg0.N) (i : S32768x128.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v56).slice (win0_3.rect t)).set ↔ _
  rw [View.set_slice_whole, Rect.mem_set_unit]
  exact Iff.rfl

/-- Row `r` of the output is written by point `r / 8192`: the four blocks cover the array. -/
theorem cover (i : S32768x128.Idx) :
    ∃ t : Fin cfg0.N, (cfg0.win 3).flush t = true ∧ i ∈ ((cfg0.win 3).blk t).view.set := by
  have hi0 : (i 0).val < 32768 := (i 0).isLt
  have hi1 : (i 1).val < 128 := (i 1).isLt
  have ht : (i 0).val / 8192 < cfg0.N := by rw [show cfg0.N = 4 from N_0]; omega
  obtain ⟨-, -, -, -, -, -, e30, e31⟩ := idx_facts ⟨(i 0).val / 8192, ht⟩
  have e30' : win0_3.index ⟨(i 0).val / 8192, ht⟩ (0 : Fin 2) = (i 0).val / 8192 := e30
  refine ⟨⟨(i 0).val / 8192, ht⟩, flush0_3 _, ?_⟩
  rw [mem_blk]
  intro a
  match a with
  | ⟨0, _⟩ =>
    show win0_3.index ⟨(i 0).val / 8192, ht⟩ (0 : Fin 2) * 8192 ≤ (i 0).val
      ∧ (i 0).val < win0_3.index ⟨(i 0).val / 8192, ht⟩ (0 : Fin 2) * 8192 + 8192
    omega
  | ⟨1, _⟩ =>
    show win0_3.index ⟨(i 0).val / 8192, ht⟩ (1 : Fin 2) * 128 ≤ (i 1).val
      ∧ (i 1).val < win0_3.index ⟨(i 0).val / 8192, ht⟩ (1 : Fin 2) * 128 + 128
    omega

/-- THE OUTPUT ARRAY after the run is the packed layer of the three arrays the region finds. -/
theorem final (c : Dev nD) :
    (dats m 0 c).arrAt 3 cfg0.N = packed (V m c main_v46) (V m c main_v47) (V m c main_v55) :=
  (dats m 0 c).arrAt_eq_of_cover 3 _ (fun t _ => flushed_eq m c t) cover

end Cert.KernelIdeal.Block

end
-- ==== Proof.KernelHost.lean ====
/-
  The host side of the kernel program: what the kernel call is given, and what is made of its output.

  Before the kernel call the program gathers the user rows `u[ru n]`, folds the gender and age paths into a per-node bias
  `(g·Wgᵀ)[rg n] + (a·Waᵀ)[ra n] + b` through two small per-class products, packs both `[131072, 32]` arrays four nodes
  to a 128-lane row, and builds the `[128, 128]` block-diagonal matrix `I₄ ⊗ Wuᵀ`. After the call it unpacks the
  `[32768, 128]` output back to `[131072, 32]`. Each of these is named here as a stage and read at an entry.
-/
import proofs.«426555_j12120397709897_3_alg».proof.Proof.Gen.KernelIdeal.Frame
import proofs.«426555_j12120397709897_3_alg».proof.Proof.LibPlainProduct
import proofs.«426555_j12120397709897_3_alg».proof.Proof.LibRowGather
import proofs.«426555_j12120397709897_3_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Host

open Cert.KernelIdeal Cert.KernelIdeal.Gen Idealize.ShloMosaic Idealize.ShloMosaic.TcCoe Idealize.ShloMosaic.ValueIdx
open Idealize.SL.Sem Idealize.ShloMosaic.StableHlo Cert.Spec Cert.Lib.RowGather

variable (a0 : IVec S131072 32) (a1 a2 : IVec S1000000 32)
  (a3 : FVec Ideal S1000000x32 .f32) (a4 : FVec Ideal S2x32 .f32)
  (a5 : FVec Ideal S8x32 .f32) (a6 : FVec Ideal S32x96 .f32)
  (a7 : FVec Ideal S32 .f32)

/-! ## The stages -/

/-- The node ids as start indices: a negative id wrapped by the table's height. -/
def nodeIdx : IVec S131072x1 32 :=
  broadcastInDim S131072x1 ![0] bcast_S131072_S131072x1_0
    (select (cmpi .slt a0 (broadcastInDim S131072 ![] bcast_S_S131072 (constantI S_ 32 0#32)))
      (addi a0 (broadcastInDim S131072 ![] bcast_S_S131072 (constantI S_ 32 1000000#32))) a0)

/-- The gender id stored for each node. -/
def genderOf : IVec S131072 32 :=
  Host.gather gather_S1000000_S131072x1_S131072_n_0_n_n_0_1_1 a1 (nodeIdx a0)

/-- The gender ids as start indices, wrapped by the gender table's height. -/
def genderIdx : IVec S131072x1 32 :=
  broadcastInDim S131072x1 ![0] bcast_S131072_S131072x1_0
    (select (cmpi .slt (genderOf a0 a1) (broadcastInDim S131072 ![] bcast_S_S131072 (constantI S_ 32 0#32)))
      (addi (genderOf a0 a1) (broadcastInDim S131072 ![] bcast_S_S131072 (constantI S_ 32 2#32))) (genderOf a0 a1))

/-- The age id stored for each node. -/
def ageOf : IVec S131072 32 :=
  Host.gather gather_S1000000_S131072x1_S131072_n_0_n_n_0_1_1 a2 (nodeIdx a0)

/-- The age ids as start indices, wrapped by the age table's height. -/
def ageIdx : IVec S131072x1 32 :=
  broadcastInDim S131072x1 ![0] bcast_S131072_S131072x1_0
    (select (cmpi .slt (ageOf a0 a2) (broadcastInDim S131072 ![] bcast_S_S131072 (constantI S_ 32 0#32)))
      (addi (ageOf a0 a2) (broadcastInDim S131072 ![] bcast_S_S131072 (constantI S_ 32 8#32))) (ageOf a0 a2))

/-- The user rows of the nodes. -/
def userRows : FVec Ideal S131072x32 .f32 :=
  Host.gather gather_S1000000x32_S131072x1_S131072x32_1_0_n_n_0_1_132 a3 (nodeIdx a0)

/-- The gender table times the transposed first band of `W`: one row of the bias per gender. -/
def genderTable : FVec Ideal S2x32 .f32 :=
  Host.dotGeneral (F := Ideal) (φ₁ := .f32) (φ₂ := .f32) dot_S2x32_S32x32_S2x32_1_0_0_1_n_n none a4
    (transpose S32x32 [1, 0] (extractStridedSlice S32x32 ![0, 0] a6 slices_S32x96_S32x32_0_0) transposes_S32x32_S32x32_1_0)

/-- The age table times the transposed second band of `W`. -/
def ageTable : FVec Ideal S8x32 .f32 :=
  Host.dotGeneral (F := Ideal) (φ₁ := .f32) (φ₂ := .f32) dot_S8x32_S32x32_S8x32_1_0_0_1_n_n none a5
    (transpose S32x32 [1, 0] (extractStridedSlice S32x32 ![0, 32] a6 slices_S32x96_S32x32_0_32) transposes_S32x32_S32x32_1_0)

/-- The folded bias of each node. -/
def biasRows : FVec Ideal S131072x32 .f32 :=
  addf (F := Ideal) (φ := .f32) (addf (F := Ideal) (φ := .f32) (Host.gather gather_S2x32_S131072x1_S131072x32_1_0_n_n_0_1_132 (genderTable a4 a6) (genderIdx a0 a1))
      (Host.gather gather_S8x32_S131072x1_S131072x32_1_0_n_n_0_1_132 (ageTable a5 a6) (ageIdx a0 a2)))
    (broadcastInDim S131072x32 ![0, 1] bcast_S1x32_S131072x32_0_1 (broadcastInDim S1x32 ![1] bcast_S32_S1x32_1 a7))

/-- The user rows, four nodes to a row. -/
def userPacked : FVec Ideal S32768x128 .f32 :=
  shapeCast S32768x128 (userRows a0 a3) shapeCasts_S131072x32_S32768x128

/-- The bias, four nodes to a row. -/
def biasPacked : FVec Ideal S32768x128 .f32 :=
  shapeCast S32768x128 (biasRows a0 a1 a2 a4 a5 a6 a7) shapeCasts_S131072x32_S32768x128

/-- The 4 × 4 identity, as the conversion of "row index = column index". -/
def eye4 : FVec Ideal S4x4 .f32 :=
  uitofp (F := Ideal) .f32 (cmpi .eq (addi (iotaInDim S4x4 32 0) (broadcastInDim S4x4 ![] bcast_S_S4x4 (constantI S_ 32 0#32)))
    (iotaInDim S4x4 32 1))

/-- The transposed third band of `W`. -/
def userWeightT : FVec Ideal S32x32 .f32 :=
  transpose S32x32 [1, 0] (extractStridedSlice S32x32 ![0, 64] a6 slices_S32x96_S32x32_0_64) transposes_S32x32_S32x32_1_0

/-- The Kronecker product `I₄ ⊗ Wuᵀ` as a `[4, 32, 4, 32]` array … -/
def kron4 : FVec Ideal S4x32x4x32 .f32 :=
  mulf (F := Ideal) (φ := .f32) (broadcastInDim S4x32x4x32 ![0, 1, 2, 3] bcast_S4x1x4x1_S4x32x4x32_0_1_2_3
      (broadcastInDim S4x1x4x1 ![0, 2] bcast_S4x4_S4x1x4x1_0_2 eye4))
    (broadcastInDim S4x32x4x32 ![0, 1, 2, 3] bcast_S1x32x1x32_S4x32x4x32_0_1_2_3
      (broadcastInDim S1x32x1x32 ![1, 3] bcast_S32x32_S1x32x1x32_1_3 (userWeightT a6)))

/-- … and as the `[128, 128]` block-diagonal matrix. -/
def blockDiag : FVec Ideal S128x128 .f32 :=
  shapeCast S128x128 (kron4 a6) shapeCasts_S4x32x4x32_S128x128

/-! ## The arrays the kernel call is given are these stages -/

variable (m : (ℓ : Loc nD τ sig) → Buf (Elt Ideal) ℓ)

set_option maxHeartbeats 4000000 in
/-- Operand 0: the packed user rows. -/
theorem V_user (c : Dev nD) :
    V m c main_v46 = userPacked (m ((c : Thread nD τ).loc main_arg0)) (m ((c : Thread nD τ).loc main_arg3)) := by
  dsimp only [Gen.V, Gen.V0]
  simp only [Gen.hostOps0, Gen.hostOps0_1, List.flatten_cons, List.flatten_nil, List.append_nil, List.cons_append, List.nil_append]
  after_results_simp
  rfl

set_option maxHeartbeats 4000000 in
/-- Operand 1: the packed bias. -/
theorem V_bias (c : Dev nD) :
    V m c main_v47 = biasPacked (m ((c : Thread nD τ).loc main_arg0)) (m ((c : Thread nD τ).loc main_arg1))
      (m ((c : Thread nD τ).loc main_arg2)) (m ((c : Thread nD τ).loc main_arg4)) (m ((c : Thread nD τ).loc main_arg5))
      (m ((c : Thread nD τ).loc main_arg6)) (m ((c : Thread nD τ).loc main_arg7)) := by
  dsimp only [Gen.V, Gen.V0]
  simp only [Gen.hostOps0, Gen.hostOps0_1, List.flatten_cons, List.flatten_nil, List.append_nil, List.cons_append, List.nil_append]
  after_results_simp
  rfl

set_option maxHeartbeats 4000000 in
/-- Operand 2: the block-diagonal matrix. -/
theorem V_weight (c : Dev nD) : V m c main_v55 = blockDiag (m ((c : Thread nD τ).loc main_arg6)) := by
  dsimp only [Gen.V, Gen.V0]
  simp only [Gen.hostOps0, Gen.hostOps0_1, List.flatten_cons, List.flatten_nil, List.append_nil, List.cons_append, List.nil_append]
  after_results_simp
  rfl

/-! ## The stages at an entry -/

/-- Node `4·r + q`: place `q` of packed row `r`. -/
abbrev node (r : Fin 32768) (q : Fin 4) : Fin 131072 := ⟨4 * r.val + q.val, by omega⟩

/-- The user row node `n` selects … -/
def rowU : Fin 131072 → Fin 1000000 := rowOf (by omega) (nodeIdx a0)
/-- … its gender row … -/
def rowG : Fin 131072 → Fin 2 := rowOf (by omega) (genderIdx a0 a1)
/-- … and its age row. -/
def rowA : Fin 131072 → Fin 8 := rowOf (by omega) (ageIdx a0 a2)

/-- The gathered user rows at `(n, k)`. -/
theorem userRows_apply (n : Fin 131072) (k : Fin 32) : userRows a0 a3 (ix2 n k) = a3 (ix2 (rowU a0 n) k) := by
  unfold userRows rowU
  exact gather_rows_apply (by omega) gather_S1000000x32_S131072x1_S131072x32_1_0_n_n_0_1_132.wf a3 _ n k

/-- Packing four nodes to a row: entry `(r, 32·q + k)` of the packed array is entry `(4·r + q, k)` of the unpacked one
    (the same row-major position). -/
theorem pack_apply (x : FVec Ideal S131072x32 .f32) (r : Fin 32768) (q : Fin 4) (k : Fin 32) :
    shapeCast S32768x128 x shapeCasts_S131072x32_S32768x128 (ix2 r (pos q k)) = x (ix2 (node r q) k) :=
  shapeCast_apply x shapeCasts_S131072x32_S32768x128 (ix2 r (pos q k)) (ix2 (node r q) k) (by
    rw [Shape.rowMajor_val_two, Shape.rowMajor_val_two]
    show (4 * r.val + q.val) * 32 + k.val = r.val * 128 + (32 * q.val + k.val)
    omega)

/-- The packed user rows at `(r, 32·q + k)`. -/
theorem userPacked_apply (r : Fin 32768) (q : Fin 4) (k : Fin 32) :
    userPacked a0 a3 (ix2 r (pos q k)) = a3 (ix2 (rowU a0 (node r q)) k) := by
  unfold userPacked
  rw [pack_apply, userRows_apply]

/-- A transposed 32-column band of `W` at `(k, j)` is `W` at row `j`, column `off + k`. -/
theorem bandT_apply (off : Nat) (hoff : off + 32 ≤ 96) (h : S32x96.Slices ![0, off] S32x32) (k j : Fin 32) :
    transpose S32x32 [1, 0] (extractStridedSlice S32x32 ![0, off] a6 h) transposes_S32x32_S32x32_1_0 (ix2 k j)
      = a6 (ix2 j (col off hoff k)) := by
  refine (transpose_apply [1, 0] _ transposes_S32x32_S32x32_1_0 (ix2 k j) (ix2 j k) (fun b => match b with
    | ⟨0, _⟩ => rfl
    | ⟨1, _⟩ => rfl)).trans ?_
  exact extractStridedSlice_apply ![0, off] a6 h (ix2 j k) (ix2 j (col off hoff k)) (fun a => match a with
    | ⟨0, _⟩ => by show j.val = 0 + j.val; omega
    | ⟨1, _⟩ => rfl)

theorem dotG_plain : Cert.Lib.PlainProduct.IsPlain dot_S2x32_S32x32_S2x32_1_0_0_1_n_n := ⟨rfl, rfl, rfl, rfl, rfl, rfl⟩
theorem dotA_plain : Cert.Lib.PlainProduct.IsPlain dot_S8x32_S32x32_S8x32_1_0_0_1_n_n := ⟨rfl, rfl, rfl, rfl, rfl, rfl⟩

/-- The per-gender bias row: the gender row against the first band of `W`. -/
theorem genderTable_apply (v : Fin 2) (j : Fin 32) : genderTable a4 a6 (ix2 v j) = bandDot a4 a6 0 (by omega) v j := by
  unfold genderTable bandDot
  simp only [Host.dotGeneral]
  rw [Cert.Lib.PlainProduct.dotGeneral_apply dotG_plain]
  exact Finset.sum_congr rfl fun k _ => congrArg (a4 (ix2 v k) * ·) (bandT_apply a6 0 (by omega) slices_S32x96_S32x32_0_0 k j)

/-- The per-age bias row: the age row against the second band of `W`. -/
theorem ageTable_apply (v : Fin 8) (j : Fin 32) : ageTable a5 a6 (ix2 v j) = bandDot a5 a6 32 (by omega) v j := by
  unfold ageTable bandDot
  simp only [Host.dotGeneral]
  rw [Cert.Lib.PlainProduct.dotGeneral_apply dotA_plain]
  exact Finset.sum_congr rfl fun k _ => congrArg (a5 (ix2 v k) * ·) (bandT_apply a6 32 (by omega) slices_S32x96_S32x32_0_32 k j)

/-- The bias vector broadcast over the nodes, at `(n, j)`. -/
theorem biasBcast_apply (n : Fin 131072) (j : Fin 32) :
    broadcastInDim S131072x32 ![0, 1] bcast_S1x32_S131072x32_0_1 (broadcastInDim S1x32 ![1] bcast_S32_S1x32_1 a7) (ix2 n j)
      = a7 (ix1 j) := by
  refine (broadcastInDim_apply _ bcast_S1x32_S131072x32_0_1 _ (ix2 n j) (ix2 (0 : Fin 1) j) (fun a => match a with
    | ⟨0, _⟩ => by show 0 = if (1 : Nat) = 1 then 0 else n.val; rw [if_pos rfl]
    | ⟨1, _⟩ => by show j.val = if (32 : Nat) = 1 then 0 else j.val; rw [if_neg (by decide)])).trans ?_
  exact broadcastInDim_apply _ bcast_S32_S1x32_1 a7 (ix2 (0 : Fin 1) j) (ix1 j) (fun a => match a with
    | ⟨0, _⟩ => by show j.val = if (32 : Nat) = 1 then 0 else j.val; rw [if_neg (by decide)])

/-- The folded bias of node `n` at feature `j`. -/
theorem biasRows_apply (n : Fin 131072) (j : Fin 32) :
    biasRows a0 a1 a2 a4 a5 a6 a7 (ix2 n j)
      = (bandDot a4 a6 0 (by omega) (rowG a0 a1 n) j + bandDot a5 a6 32 (by omega) (rowA a0 a2 n) j) + a7 (ix1 j) := by
  unfold biasRows
  show (Host.gather gather_S2x32_S131072x1_S131072x32_1_0_n_n_0_1_132 (genderTable a4 a6) (genderIdx a0 a1) (ix2 n j)
      + Host.gather gather_S8x32_S131072x1_S131072x32_1_0_n_n_0_1_132 (ageTable a5 a6) (ageIdx a0 a2) (ix2 n j))
    + broadcastInDim S131072x32 ![0, 1] bcast_S1x32_S131072x32_0_1 (broadcastInDim S1x32 ![1] bcast_S32_S1x32_1 a7) (ix2 n j) = _
  rw [biasBcast_apply,
    show Host.gather gather_S2x32_S131072x1_S131072x32_1_0_n_n_0_1_132 (genderTable a4 a6) (genderIdx a0 a1) (ix2 n j)
      = genderTable a4 a6 (ix2 (rowG a0 a1 n) j) from
      gather_rows_apply (by omega) gather_S2x32_S131072x1_S131072x32_1_0_n_n_0_1_132.wf _ _ n j,
    show Host.gather gather_S8x32_S131072x1_S131072x32_1_0_n_n_0_1_132 (ageTable a5 a6) (ageIdx a0 a2) (ix2 n j)
      = ageTable a5 a6 (ix2 (rowA a0 a2 n) j) from
      gather_rows_apply (by omega) gather_S8x32_S131072x1_S131072x32_1_0_n_n_0_1_132.wf _ _ n j,
    genderTable_apply, ageTable_apply]

/-- The packed bias at `(r, 32·q + j)`. -/
theorem biasPacked_apply (r : Fin 32768) (q : Fin 4) (j : Fin 32) :
    biasPacked a0 a1 a2 a4 a5 a6 a7 (ix2 r (pos q j))
      = (bandDot a4 a6 0 (by omega) (rowG a0 a1 (node r q)) j + bandDot a5 a6 32 (by omega) (rowA a0 a2 (node r q)) j)
        + a7 (ix1 j) := by
  unfold biasPacked
  rw [pack_apply, biasRows_apply]

/-- "Row index = column index" over 4 × 4, as a bit. -/
theorem eye_bit : ∀ a q : Fin 4,
    IntOp.cmpi .eq (IntOp.addi (BitVec.ofNat 32 a.val) 0#32) (BitVec.ofNat 32 q.val) = if a = q then 1#1 else 0#1 := by
  decide

/-- The identity's entries. -/
theorem eye4_apply (a q : Fin 4) : eye4 (ix2 a q) = if a = q then (1 : EReal) else 0 := by
  show (((IntOp.cmpi .eq (IntOp.addi (BitVec.ofNat 32 a.val) 0#32) (BitVec.ofNat 32 q.val)).toNat : ℝ) : EReal) = _
  rw [eye_bit]
  by_cases h : a = q
  · rw [if_pos h, if_pos h]; simp
  · rw [if_neg h, if_neg h]; simp

/-- The Kronecker product's entry `(a, b, q, j)` is `[a = q] · W[j, 64 + b]`. -/
theorem kron4_apply (a : Fin 4) (b : Fin 32) (q : Fin 4) (j : Fin 32) :
    kron4 a6 (ix4 a b q j) = (if a = q then (1 : EReal) else 0) * a6 (ix2 j (col 64 (by omega) b)) := by
  unfold kron4
  show broadcastInDim S4x32x4x32 ![0, 1, 2, 3] bcast_S4x1x4x1_S4x32x4x32_0_1_2_3
        (broadcastInDim S4x1x4x1 ![0, 2] bcast_S4x4_S4x1x4x1_0_2 eye4) (ix4 a b q j)
      * broadcastInDim S4x32x4x32 ![0, 1, 2, 3] bcast_S1x32x1x32_S4x32x4x32_0_1_2_3
        (broadcastInDim S1x32x1x32 ![1, 3] bcast_S32x32_S1x32x1x32_1_3 (userWeightT a6)) (ix4 a b q j) = _
  have hL : broadcastInDim S4x32x4x32 ![0, 1, 2, 3] bcast_S4x1x4x1_S4x32x4x32_0_1_2_3
      (broadcastInDim S4x1x4x1 ![0, 2] bcast_S4x4_S4x1x4x1_0_2 eye4) (ix4 a b q j) = eye4 (ix2 a q) := by
    refine (broadcastInDim_apply _ bcast_S4x1x4x1_S4x32x4x32_0_1_2_3 _ (ix4 a b q j) (ix4 a (0 : Fin 1) q (0 : Fin 1))
      (fun d => match d with
        | ⟨0, _⟩ => by show a.val = if (4 : Nat) = 1 then 0 else a.val; rw [if_neg (by decide)]
        | ⟨1, _⟩ => by show 0 = if (1 : Nat) = 1 then 0 else b.val; rw [if_pos rfl]
        | ⟨2, _⟩ => by show q.val = if (4 : Nat) = 1 then 0 else q.val; rw [if_neg (by decide)]
        | ⟨3, _⟩ => by show 0 = if (1 : Nat) = 1 then 0 else j.val; rw [if_pos rfl])).trans ?_
    exact broadcastInDim_apply _ bcast_S4x4_S4x1x4x1_0_2 eye4 (ix4 a (0 : Fin 1) q (0 : Fin 1)) (ix2 a q) (fun d => match d with
      | ⟨0, _⟩ => by show a.val = if (4 : Nat) = 1 then 0 else a.val; rw [if_neg (by decide)]
      | ⟨1, _⟩ => by show q.val = if (4 : Nat) = 1 then 0 else q.val; rw [if_neg (by decide)])
  have hR : broadcastInDim S4x32x4x32 ![0, 1, 2, 3] bcast_S1x32x1x32_S4x32x4x32_0_1_2_3
      (broadcastInDim S1x32x1x32 ![1, 3] bcast_S32x32_S1x32x1x32_1_3 (userWeightT a6)) (ix4 a b q j)
      = userWeightT a6 (ix2 b j) := by
    refine (broadcastInDim_apply _ bcast_S1x32x1x32_S4x32x4x32_0_1_2_3 _ (ix4 a b q j) (ix4 (0 : Fin 1) b (0 : Fin 1) j)
      (fun d => match d with
        | ⟨0, _⟩ => by show 0 = if (1 : Nat) = 1 then 0 else a.val; rw [if_pos rfl]
        | ⟨1, _⟩ => by show b.val = if (32 : Nat) = 1 then 0 else b.val; rw [if_neg (by decide)]
        | ⟨2, _⟩ => by show 0 = if (1 : Nat) = 1 then 0 else q.val; rw [if_pos rfl]
        | ⟨3, _⟩ => by show j.val = if (32 : Nat) = 1 then 0 else j.val; rw [if_neg (by decide)])).trans ?_
    exact broadcastInDim_apply _ bcast_S32x32_S1x32x1x32_1_3 (userWeightT a6) (ix4 (0 : Fin 1) b (0 : Fin 1) j) (ix2 b j) (fun d => match d with
      | ⟨0, _⟩ => by show b.val = if (32 : Nat) = 1 then 0 else b.val; rw [if_neg (by decide)]
      | ⟨1, _⟩ => by show j.val = if (32 : Nat) = 1 then 0 else j.val; rw [if_neg (by decide)])
  rw [hL, hR, eye4_apply]
  unfold userWeightT
  rw [bandT_apply a6 64 (by omega) slices_S32x96_S32x32_0_64 b j]

/-- The block-diagonal matrix at `(32·a + b, 32·q + j)`. -/
theorem blockDiag_apply (a : Fin 4) (b : Fin 32) (q : Fin 4) (j : Fin 32) :
    blockDiag a6 (ix2 (pos a b) (pos q j)) = (if a = q then (1 : EReal) else 0) * a6 (ix2 j (col 64 (by omega) b)) := by
  unfold blockDiag
  rw [shapeCast_apply (kron4 a6) shapeCasts_S4x32x4x32_S128x128 (ix2 (pos a b) (pos q j)) (ix4 a b q j) (by
    rw [Shape.rowMajor_val_four, Shape.rowMajor_val_two]
    show ((a.val * 32 + b.val) * 4 + q.val) * 32 + j.val = (32 * a.val + b.val) * 128 + (32 * q.val + j.val)
    omega)]
  exact kron4_apply a6 a b q j

end Cert.KernelIdeal.Host

end
-- ==== Proof.KernelValue.lean ====
/-
  What the kernel program computes: the layer function at the rows its lookups select.

  Entry `(r, 32·q + j)` of the packed output is `max (Σ_k X[r, k]·Wb[k, 32·q + j] + Bp[r, 32·q + j]) 0`. The matrix is
  block diagonal, so of the 128 terms only the 32 of band `q` remain, and they are node `4·r + q`'s user row against the
  third band of row `j` of `W`; the packed bias there is that node's gender and age products plus `b[j]`. Unpacking the
  output puts this at `(4·r + q, j)`: the layer function `G`.
-/
import proofs.«426555_j12120397709897_3_alg».proof.Proof.KernelBlock
import proofs.«426555_j12120397709897_3_alg».proof.Proof.KernelHost
import proofs.«426555_j12120397709897_3_alg».proof.Proof.Spec

set_option maxRecDepth 16384

noncomputable section

open scoped BigOperators

namespace Cert.KernelIdeal.KValue

open Cert.KernelIdeal Cert.KernelIdeal.Gen Idealize.ShloMosaic Idealize.ShloMosaic.TcCoe Idealize.ShloMosaic.ValueIdx
open Idealize.SL.Sem Idealize.ShloMosaic.StableHlo Cert.Spec Cert.KernelIdeal.Block Cert.KernelIdeal.Host

section Pure

variable (a0 : IVec S131072 32) (a1 a2 : IVec S1000000 32) (a3 : FVec Ideal S1000000x32 .f32) (a4 : FVec Ideal S2x32 .f32)
  (a5 : FVec Ideal S8x32 .f32) (a6 : FVec Ideal S32x96 .f32) (a7 : FVec Ideal S32 .f32)

/-- The packed layer of the host's stages at `(r, 32·q + j)` is the layer function at node `4·r + q`, feature `j`. -/
theorem packed_stages_apply (r : Fin 32768) (q : Fin 4) (j : Fin 32) :
    packed (userPacked a0 a3) (biasPacked a0 a1 a2 a4 a5 a6 a7) (blockDiag a6) (ix2 r (pos q j))
      = Gat (rowU a0) (rowG a0 a1) (rowA a0 a2) a3 a4 a5 a6 a7 (node r q) j := by
  have hsum : ∑ k : Fin 128, userPacked a0 a3 (ix2 r k) * blockDiag a6 (ix2 k (pos q j))
      = bandDot a3 a6 64 (by omega) (rowU a0 (node r q)) j :=
    sum_block_diag q _ _ (fun a b => a3 (ix2 (rowU a0 (node r a)) b)) (fun b => a6 (ix2 j (col 64 (by omega) b)))
      (fun a b => userPacked_apply a0 a3 r a b) (fun a b => blockDiag_apply a6 a b q j)
  rw [packed_apply, biasPacked_apply, hsum]
  unfold Gat
  rw [regroup]

/-- Unpacking: entry `(n, j)` of the unpacked array is entry `(n / 4, 32·(n % 4) + j)` of the packed one. -/
theorem unpack_apply (x : FVec Ideal S32768x128 .f32) (n : Fin 131072) (j : Fin 32) :
    shapeCast S131072x32 x shapeCasts_S32768x128_S131072x32 (ix2 n j)
      = x (ix2 (⟨n.val / 4, by omega⟩ : Fin 32768) (pos (⟨n.val % 4, by omega⟩ : Fin 4) j)) :=
  shapeCast_apply x shapeCasts_S32768x128_S131072x32 (ix2 n j) _ (by
    rw [Shape.rowMajor_val_two, Shape.rowMajor_val_two]
    show n.val / 4 * 128 + (32 * (n.val % 4) + j.val) = n.val * 32 + j.val
    omega)

/-- The unpacked packed layer of the host's stages is the layer function. -/
theorem unpacked_eq :
    shapeCast S131072x32 (packed (userPacked a0 a3) (biasPacked a0 a1 a2 a4 a5 a6 a7) (blockDiag a6))
        shapeCasts_S32768x128_S131072x32
      = G (rowU a0) (rowG a0 a1) (rowA a0 a2) a3 a4 a5 a6 a7 := by
  funext i
  obtain ⟨n, j, rfl⟩ : ∃ (n : Fin 131072) (j : Fin 32), i = ix2 n j := ⟨i 0, i 1, eq_ix2 i⟩
  rw [unpack_apply, packed_stages_apply, G_apply]
  exact congrArg (fun n' => Gat (rowU a0) (rowG a0 a1) (rowA a0 a2) a3 a4 a5 a6 a7 n' j) (Fin.ext (by
    show 4 * (n.val / 4) + n.val % 4 = n.val
    omega))

end Pure

variable (m : (ℓ : Loc nD τ sig) → Buf (Elt Ideal) ℓ) (ρ : Dev nD → PrngReg)

set_option maxHeartbeats 1000000 in
/-- THE RESULT the host tail leaves: the region's output array, unpacked, is the layer function of the arguments. -/
theorem result_eq (c : Dev nD) :
    Pipeline.afterTail₀ cfgs (dats m) 0 (V0 m) [hostOps1] c main_v57
      = G (rowU (m ((c.tc : Thread nD τ).loc main_arg0))) (rowG (m ((c.tc : Thread nD τ).loc main_arg0)) (m ((c.tc : Thread nD τ).loc main_arg1))) (rowA (m ((c.tc : Thread nD τ).loc main_arg0)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have harr : Pipeline.withArrays spec0 c (V0 m c) (fun w => (dats m 0 c).arrAt w cfg0.N) (Proc.devRef .tc main_v56)
      = packed (V m c main_v46) (V m c main_v47) (V m c main_v55) :=
    (Pipeline.withArrays_arr spec0 launch0.win.arr_inj c _ _ 3).trans (Block.final m c)
  unfold Pipeline.afterTail₀
  show StableHlo.after hostOps1 _ (Proc.devRef .tc main_v57) = _
  after_results
  rw [harr, V_user, V_bias, V_weight]
  exact unpacked_eq _ _ _ _ _ _ _ _

/-- THE KERNEL PROGRAM'S RUN: it terminates with its result at the layer function of the arguments, the arguments unchanged. -/
theorem run : θ_run defs (onTc (τ := τ) (main (F := Ideal))) ⟨m, fun _ => 0, ρ⟩ (fun r => ∀ c : Dev nD,
      r.2.mem ((c.tc : Thread nD τ).loc main_v57)
        = G (rowU (m ((c.tc : Thread nD τ).loc main_arg0))) (rowG (m ((c.tc : Thread nD τ).loc main_arg0)) (m ((c.tc : Thread nD τ).loc main_arg1))) (rowA (m ((c.tc : Thread nD τ).loc main_arg0)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v57 (Pipeline.mem_restRefs_of main_v57 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.KValue

end
-- ==== Proof.lean ====
/-
  The certificate of an embedding layer with folded small-table lookups and a lane-packed product.

  Both programs compute, for node `n` and output feature `j`,
    `max (Σ_k g[rg n, k]·W[j, k] + Σ_k a[ra n, k]·W[j, 32 + k] + Σ_k u[ru n, k]·W[j, 64 + k] + b[j]) 0`
  where `ru n`, `rg n`, `ra n` are the rows of the user, gender and age tables that the node's (wrapped, clamped) ids
  select. The reference concatenates the three looked-up rows and multiplies once by `Wᵀ`. The kernel program multiplies
  the gender and age tables by their bands of `W` once per class and looks the products up, adds `b`, packs four nodes to
  a 128-lane row, and lets the kernel call add the packed user rows times the block-diagonal `I₄ ⊗ Wuᵀ` and take the
  positive part. Over the extended reals the two are the same sum of the same products, regrouped (Proof/Spec.lean): no
  law is used that fails at an infinity, so the finiteness of the inputs is not needed. The lookups read the same rows on
  both sides because both programs build their start indices by the same operations of the same arguments.

  The frames of the two kernel programs are the generated ones; the reference's is its generated run. The idealization
  rewrote nothing, so `preserves` is `True`.
-/
import proofs.«426555_j12120397709897_3_alg».proof.Defs
import proofs.«426555_j12120397709897_3_alg».proof.Proof.Gen.Kernel
import proofs.«426555_j12120397709897_3_alg».proof.Proof.Gen.Kernel.Skeleton
import proofs.«426555_j12120397709897_3_alg».proof.Proof.Gen.Kernel.Launch
import proofs.«426555_j12120397709897_3_alg».proof.Proof.Gen.Kernel.Points
import proofs.«426555_j12120397709897_3_alg».proof.Proof.Gen.Kernel.Frame
import proofs.«426555_j12120397709897_3_alg».proof.Proof.Gen.KernelIdeal
import proofs.«426555_j12120397709897_3_alg».proof.Proof.Gen.KernelIdeal.Skeleton
import proofs.«426555_j12120397709897_3_alg».proof.Proof.Gen.KernelIdeal.Launch
import proofs.«426555_j12120397709897_3_alg».proof.Proof.Gen.KernelIdeal.Points
import proofs.«426555_j12120397709897_3_alg».proof.Proof.Gen.KernelIdeal.Frame
import proofs.«426555_j12120397709897_3_alg».proof.Proof.Gen.ReferenceIdeal
import proofs.«426555_j12120397709897_3_alg».proof.Proof.Gen.Pre_finite_inputs
import proofs.«426555_j12120397709897_3_alg».proof.Proof.Gen.ReferenceIdeal.Run
import proofs.«426555_j12120397709897_3_alg».proof.Proof.Gen.ReferenceIdeal.Read
import proofs.«426555_j12120397709897_3_alg».proof.Proof.RefValue
import proofs.«426555_j12120397709897_3_alg».proof.Proof.KernelValue
import Idealize.ShloMosaic.Adequacy
import Idealize.ShloMosaic.Init

noncomputable section

namespace Cert.Proof

open Idealize.ShloMosaic Idealize.SL.Sem

/-! ## Both programs select the same rows -/

/-- The node ids become start indices by the same operations in both programs … -/
theorem nodeIdx_eq (a0 : IVec Cert.KernelIdeal.S131072 32) :
    Cert.KernelIdeal.Host.nodeIdx a0 = Cert.ReferenceIdeal.Read.val_main_v33 (F := Ideal) a0 := rfl

/-- … and so do the gender ids stored for the nodes … -/
theorem genderIdx_eq (a0 : IVec Cert.KernelIdeal.S131072 32) (a1 : IVec Cert.KernelIdeal.S1000000 32) :
    Cert.KernelIdeal.Host.genderIdx a0 a1 = Cert.ReferenceIdeal.Read.val_main_v12 (F := Ideal) a0 a1 := rfl

/-- … and the age ids. -/
theorem ageIdx_eq (a0 : IVec Cert.KernelIdeal.S131072 32) (a2 : IVec Cert.KernelIdeal.S1000000 32) :
    Cert.KernelIdeal.Host.ageIdx a0 a2 = Cert.ReferenceIdeal.Read.val_main_v26 (F := Ideal) a0 a2 := rfl

theorem rowU_eq (a0 : IVec Cert.KernelIdeal.S131072 32) :
    Cert.ReferenceIdeal.RefValue.rowU a0 = Cert.KernelIdeal.Host.rowU a0 := by
  unfold Cert.ReferenceIdeal.RefValue.rowU Cert.KernelIdeal.Host.rowU
  rw [nodeIdx_eq]

theorem rowG_eq (a0 : IVec Cert.KernelIdeal.S131072 32) (a1 : IVec Cert.KernelIdeal.S1000000 32) :
    Cert.ReferenceIdeal.RefValue.rowG a0 a1 = Cert.KernelIdeal.Host.rowG a0 a1 := by
  unfold Cert.ReferenceIdeal.RefValue.rowG Cert.KernelIdeal.Host.rowG
  rw [genderIdx_eq]

theorem rowA_eq (a0 : IVec Cert.KernelIdeal.S131072 32) (a2 : IVec Cert.KernelIdeal.S1000000 32) :
    Cert.ReferenceIdeal.RefValue.rowA a0 a2 = Cert.KernelIdeal.Host.rowA a0 a2 := by
  unfold Cert.ReferenceIdeal.RefValue.rowA Cert.KernelIdeal.Host.rowA
  rw [ageIdx_eq]

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end at the layer function of those arguments. -/
theorem algebraic : Cert.algebraic_KernelIdeal_ReferenceIdeal := by
  intro m ρ m' ρ' _ hagree
  refine ⟨fun c => Cert.Spec.G (Cert.KernelIdeal.Host.rowU (m ((c.tc : Thread Cert.KernelIdeal.nD Cert.KernelIdeal.τ).loc Cert.KernelIdeal.main_arg0))) (Cert.KernelIdeal.Host.rowG (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.KernelIdeal.Host.rowA (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v41_eq, Cert.ReferenceIdeal.RefValue.result_eq, h0, h1, h2, h3, h4, h5, h6, h7,
    rowU_eq, rowG_eq, rowA_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
